-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S125000 : Shape := ⟨1, ![125000]⟩
abbrev S125000x64 : Shape := ⟨2, ![125000, 64]⟩
abbrev S1000x128 : Shape := ⟨2, ![1000, 128]⟩
abbrev S128x64 : Shape := ⟨2, ![128, 64]⟩
abbrev S128 : Shape := ⟨1, ![128]⟩
abbrev S256x256 : Shape := ⟨2, ![256, 256]⟩
abbrev S256 : Shape := ⟨1, ![256]⟩
abbrev S_ : Shape := ⟨0, ![]⟩

class Facts : Prop where
  bcast_S_S125000x64 : S_.BroadcastsInDim S125000x64 (![] : Fin 0 → Fin S125000x64.rank)
  reducesTo_S125000x64_S_d0_1 : S125000x64.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg0 : IVec S500000 32) (main_arg19 : FVec F S256 .f32) (main_v63 : IVec S_ 1) (main_v67 : IVec S_ 1) : IVec S_ 1 :=
  let main_v68 : IVec S_ 1 := andi main_v63 main_v67
  let main_v69 : FVec F S256 .f32 := Host.absf main_arg19
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_c_28 : IVec S_ 32 := constantI S_ 32 0#32
  let main_v74 : IVec S500000 32 := broadcastInDim S500000 ![] bcast_S_S500000 main_c_28
  let main_v75 : IVec S500000 1 := cmpi .sge main_arg0 main_v74
  let main_c_29 : IVec S_ 32 := constantI S_ 32 1000#32
  let main_v76 : IVec S500000 32 := broadcastInDim S500000 ![] bcast_S_S500000 main_c_29
  let main_v77 : IVec S500000 1 := cmpi .slt main_arg0 main_v76
  let main_v78 : IVec S500000 1 := andi main_v75 main_v77
  let main_c_30 : IVec S_ 1 := constantI S_ 1 1#1
  let main_v79 : IVec S_ 1 := (fun x v => Host.reduce IntOp.andi x v reducesTo_S500000_S_d0 h_S_) main_v78 main_c_30
  let main_v80 : IVec S_ 1 := andi main_v73 main_v79
  main_v80

def fn_part3 {F : FTy → Type} [FloatOps F] (main_arg0 : IVec S500000 32) (main_arg16 : FVec F S128x64 .f32) (main_arg17 : FVec F S128 .f32) (main_arg18 : FVec F S256x256 .f32) (main_arg19 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg16
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128 .f32 := Host.absf main_arg17
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x256 .f32 := Host.absf main_arg18
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg0 main_arg19 main_v63 main_v67

def fn_part2 {F : FTy → Type} [FloatOps F] (main_arg0 : IVec S500000 32) (main_arg12 : FVec F S128x64 .f32) (main_arg13 : FVec F S128 .f32) (main_arg14 : FVec F S128x64 .f32) (main_arg15 : FVec F S128 .f32) (main_arg16 : FVec F S128x64 .f32) (main_arg17 : FVec F S128 .f32) (main_arg18 : FVec F S256x256 .f32) (main_arg19 : FVec F S256 .f32) (main_v33 : IVec S_ 1) : IVec S_ 1 :=
  let main_v34 : FVec F S128x64 .f32 := Host.absf main_arg12
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg13
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg14
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S128 .f32 := Host.absf main_arg15
  let main_cst_18 : FVec F S_ .f32 := constant S_ .f32 0x7F800000#32
  let main_v50 : FVec F S128 .f32 := broadcastInDim S128 ![] bcast_S_S128 main_cst_18
  fn_part3 (F := F) main_arg0 main_arg16 main_arg17 main_arg18 main_arg19 main_v48 main_v49 main_v50

def fn_part1 {F : FTy → Type} [FloatOps F] (main_arg0 : IVec S500000 32) (main_arg9 : FVec F S1000x128 .f32) (main_arg10 : FVec F S128x64 .f32) (main_arg11 : FVec F S128 .f32) (main_arg12 : FVec F S128x64 .f32) (main_arg13 : FVec F S128 .f32) (main_arg14 : FVec F S128x64 .f32) (main_arg15 : FVec F S128 .f32) (main_arg16 : FVec F S128x64 .f32) (main_arg17 : FVec F S128 .f32) (main_arg18 : FVec F S256x256 .f32) (main_arg19 : FVec F S256 .f32) (main_v13 : IVec S_ 1) (main_v16 : IVec S125000x64 1) : IVec S_ 1 :=
  let main_c_5 : IVec S_ 1 := constantI S_ 1 1#1
  let main_v17 : IVec S_ 1 := (fun x v => Host.reduce IntOp.andi x v reducesTo_S125000x64_S_d0_1 h_S_) main_v16 main_c_5
  let main_v18 : IVec S_ 1 := andi main_v13 main_v17
  let main_v19 : FVec F S1000x128 .f32 := Host.absf main_arg9
  let main_cst_6 : FVec F S_ .f32 := constant S_ .f32 0x7F800000#32
  let main_v20 : FVec F S1000x128 .f32 := broadcastInDim S1000x128 ![] bcast_S_S1000x128 main_cst_6
  let main_v21 : IVec S1000x128 1 := cmpf .olt main_v19 main_v20
  let main_c_7 : IVec S_ 1 := constantI S_ 1 1#1
  let main_v22 : IVec S_ 1 := (fun x v => Host.reduce IntOp.andi x v reducesTo_S1000x128_S_d0_1 h_S_) main_v21 main_c_7
  let main_v23 : IVec S_ 1 := andi main_v18 main_v22
  let main_v24 : FVec F S128x64 .f32 := Host.absf main_arg10
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg12 main_arg13 main_arg14 main_arg15 main_arg16 main_arg17 main_arg18 main_arg19 main_v33

def fn {F : FTy → Type} [FloatOps F] (main_arg0 : IVec S500000 32) (main_arg1 : IVec S125000 32) (main_arg2 : FVec F S125000x64 .f32) (main_arg3 : IVec S125000 32) (main_arg4 : FVec F S125000x64 .f32) (main_arg5 : IVec S125000 32) (main_arg6 : FVec F S125000x64 .f32) (main_arg7 : IVec S125000 32) (main_arg8 : FVec F S125000x64 .f32) (main_arg9 : FVec F S1000x128 .f32) (main_arg10 : FVec F S128x64 .f32) (main_arg11 : FVec F S128 .f32) (main_arg12 : FVec F S128x64 .f32) (main_arg13 : FVec F S128 .f32) (main_arg14 : FVec F S128x64 .f32) (main_arg15 : FVec F S128 .f32) (main_arg16 : FVec F S128x64 .f32) (main_arg17 : FVec F S128 .f32) (main_arg18 : FVec F S256x256 .f32) (main_arg19 : FVec F S256 .f32) : IVec S_ 1 :=
  let main_v0 : FVec F S125000x64 .f32 := Host.absf main_arg2
  let main_cst : FVec F S_ .f32 := constant S_ .f32 0x7F800000#32
  let main_v1 : FVec F S125000x64 .f32 := broadcastInDim S125000x64 ![] bcast_S_S125000x64 main_cst
  let main_v2 : IVec S125000x64 1 := cmpf .olt main_v0 main_v1
  let main_c : IVec S_ 1 := constantI S_ 1 1#1
  let main_v3 : IVec S_ 1 := (fun x v => Host.reduce IntOp.andi x v reducesTo_S125000x64_S_d0_1 h_S_) main_v2 main_c
  let main_v4 : FVec F S125000x64 .f32 := Host.absf main_arg4
  let main_cst_0 : FVec F S_ .f32 := constant S_ .f32 0x7F800000#32
  let main_v5 : FVec F S125000x64 .f32 := broadcastInDim S125000x64 ![] bcast_S_S125000x64 main_cst_0
  let main_v6 : IVec S125000x64 1 := cmpf .olt main_v4 main_v5
  let main_c_1 : IVec S_ 1 := constantI S_ 1 1#1
  let main_v7 : IVec S_ 1 := (fun x v => Host.reduce IntOp.andi x v reducesTo_S125000x64_S_d0_1 h_S_) main_v6 main_c_1
  let main_v8 : IVec S_ 1 := andi main_v3 main_v7
  let main_v9 : FVec F S125000x64 .f32 := Host.absf main_arg6
  let main_cst_2 : FVec F S_ .f32 := constant S_ .f32 0x7F800000#32
  let main_v10 : FVec F S125000x64 .f32 := broadcastInDim S125000x64 ![] bcast_S_S125000x64 main_cst_2
  let main_v11 : IVec S125000x64 1 := cmpf .olt main_v9 main_v10
  let main_c_3 : IVec S_ 1 := constantI S_ 1 1#1
  let main_v12 : IVec S_ 1 := (fun x v => Host.reduce IntOp.andi x v reducesTo_S125000x64_S_d0_1 h_S_) main_v11 main_c_3
  let main_v13 : IVec S_ 1 := andi main_v8 main_v12
  let main_v14 : FVec F S125000x64 .f32 := Host.absf main_arg8
  let main_cst_4 : FVec F S_ .f32 := constant S_ .f32 0x7F800000#32
  let main_v15 : FVec F S125000x64 .f32 := broadcastInDim S125000x64 ![] bcast_S_S125000x64 main_cst_4
  let main_v16 : IVec S125000x64 1 := cmpf .olt main_v14 main_v15
  fn_part1 (F := F) main_arg0 main_arg9 main_arg10 main_arg11 main_arg12 main_arg13 main_arg14 main_arg15 main_arg16 main_arg17 main_arg18 main_arg19 main_v13 main_v16
-- ==== Kernel.lean ====
abbrev S500000 : Shape := ⟨1, ![500000]⟩
abbrev S125000 : Shape := ⟨1, ![125000]⟩
abbrev S125000x64 : Shape := ⟨2, ![125000, 64]⟩
abbrev S1000x128 : Shape := ⟨2, ![1000, 128]⟩
abbrev S128x64 : Shape := ⟨2, ![128, 64]⟩
abbrev S128 : Shape := ⟨1, ![128]⟩
abbrev S256x256 : Shape := ⟨2, ![256, 256]⟩
abbrev S256 : Shape := ⟨1, ![256]⟩
abbrev S_ : Shape := ⟨0, ![]⟩
abbrev S503808 : Shape := ⟨1, ![503808]⟩
abbrev S503808x128 : Shape := ⟨2, ![503808, 128]⟩
abbrev S4096 : Shape := ⟨1, ![4096]⟩
abbrev S4096x128 : Shape := ⟨2, ![4096, 128]⟩
abbrev S4096x1000 : Shape := ⟨2, ![4096, 1000]⟩
abbrev S4096x1 : Shape := ⟨2, ![4096, 1]⟩
abbrev S500000x128 : Shape := ⟨2, ![500000, 128]⟩
abbrev S125000x128 : Shape := ⟨2, ![125000, 128]⟩
abbrev S5000x64 : Shape := ⟨2, ![5000, 64]⟩
abbrev S5000x128 : Shape := ⟨2, ![5000, 128]⟩
abbrev S64x128 : Shape := ⟨2, ![64, 128]⟩
abbrev S1x128 : Shape := ⟨2, ![1, 128]⟩
abbrev S125000x1 : Shape := ⟨2, ![125000, 1]⟩
abbrev S500000x256 : Shape := ⟨2, ![500000, 256]⟩
abbrev S5000x256 : Shape := ⟨2, ![5000, 256]⟩
abbrev S1x256 : Shape := ⟨2, ![1, 256]⟩

abbrev nBuf : Space → Nat
  | .hbm => 70
  | .vmem => 37
  | .smem => 0
  | _ => 0

abbrev bufTy : (tb : Table) → Fin (tcTables nBuf tb) → BufTy
  | .hbm, ⟨0, _⟩ => ⟨S500000, .i32⟩
  | .hbm, ⟨1, _⟩ => ⟨S125000, .i32⟩
  | .hbm, ⟨2, _⟩ => ⟨S125000x64, .f32⟩
  | .hbm, ⟨3, _⟩ => ⟨S125000, .i32⟩
  | .hbm, ⟨4, _⟩ => ⟨S125000x64, .f32⟩
  | .hbm, ⟨5, _⟩ => ⟨S125000, .i32⟩
  | .hbm, ⟨6, _⟩ => ⟨S125000x64, .f32⟩
  | .hbm, ⟨7, _⟩ => ⟨S125000, .i32⟩
  | .hbm, ⟨8, _⟩ => ⟨S125000x64, .f32⟩
  | .hbm, ⟨9, _⟩ => ⟨S1000x128, .f32⟩
  | .hbm, ⟨10, _⟩ => ⟨S128x64, .f32⟩
  | .hbm, ⟨11, _⟩ => ⟨S128, .f32⟩
  | .hbm, ⟨12, _⟩ => ⟨S128x64, .f32⟩
  | .hbm, ⟨13, _⟩ => ⟨S128, .f32⟩
  | .hbm, ⟨14, _⟩ => ⟨S128x64, .f32⟩
  | .hbm, ⟨15, _⟩ => ⟨S128, .f32⟩
  | .hbm, ⟨16, _⟩ => ⟨S128x64, .f32⟩
  | .hbm, ⟨17, _⟩ => ⟨S128, .f32⟩
  | .hbm, ⟨18, _⟩ => ⟨S256x256, .f32⟩
  | .hbm, ⟨19, _⟩ => ⟨S256, .f32⟩
  | .hbm, ⟨20, _⟩ => ⟨S1000x128, .bf16⟩
  | .hbm, ⟨21, _⟩ => ⟨S_, .i32⟩
  | .hbm, ⟨22, _⟩ => ⟨S_, .i32⟩
  | .hbm, ⟨23, _⟩ => ⟨S503808, .i32⟩
  | .hbm, ⟨24, _⟩ => ⟨S503808x128, .bf16⟩
  | .hbm, ⟨25, _⟩ => ⟨S500000x128, .bf16⟩
  | .hbm, ⟨26, _⟩ => ⟨S125000x128, .bf16⟩
  | .hbm, ⟨27, _⟩ => ⟨S125000x128, .bf16⟩
  | .hbm, ⟨28, _⟩ => ⟨S125000x128, .bf16⟩
  | .hbm, ⟨29, _⟩ => ⟨S125000x128, .bf16⟩
  | .hbm, ⟨30, _⟩ => ⟨S_, .bf16⟩
  | .hbm, ⟨31, _⟩ => ⟨S500000x128, .bf16⟩
  | .hbm, ⟨32, _⟩ => ⟨S_, .i32⟩
  | .hbm, ⟨33, _⟩ => ⟨S125000, .i32⟩
  | .hbm, ⟨34, _⟩ => ⟨S125000, .i1⟩
  | .hbm, ⟨35, _⟩ => ⟨S_, .i32⟩
  | .hbm, ⟨36, _⟩ => ⟨S125000, .i32⟩
  | .hbm, ⟨37, _⟩ => ⟨S125000, .i32⟩
  | .hbm, ⟨38, _⟩ => ⟨S125000, .i32⟩
  | .hbm, ⟨39, _⟩ => ⟨S125000x1, .i32⟩
  | .hbm, ⟨40, _⟩ => ⟨S500000x128, .bf16⟩
  | .hbm, ⟨41, _⟩ => ⟨S_, .i32⟩
  | .hbm, ⟨42, _⟩ => ⟨S125000, .i32⟩
  | .hbm, ⟨43, _⟩ => ⟨S125000, .i1⟩
  | .hbm, ⟨44, _⟩ => ⟨S_, .i32⟩
  | .hbm, ⟨45, _⟩ => ⟨S125000, .i32⟩
  | .hbm, ⟨46, _⟩ => ⟨S125000, .i32⟩
  | .hbm, ⟨47, _⟩ => ⟨S125000, .i32⟩
  | .hbm, ⟨48, _⟩ => ⟨S125000x1, .i32⟩
  | .hbm, ⟨49, _⟩ => ⟨S500000x128, .bf16⟩
  | .hbm, ⟨50, _⟩ => ⟨S_, .i32⟩
  | .hbm, ⟨51, _⟩ => ⟨S125000, .i32⟩
  | .hbm, ⟨52, _⟩ => ⟨S125000, .i1⟩
  | .hbm, ⟨53, _⟩ => ⟨S_, .i32⟩
  | .hbm, ⟨54, _⟩ => ⟨S125000, .i32⟩
  | .hbm, ⟨55, _⟩ => ⟨S125000, .i32⟩
  | .hbm, ⟨56, _⟩ => ⟨S125000, .i32⟩
  | .hbm, ⟨57, _⟩ => ⟨S125000x1, .i32⟩
  | .hbm, ⟨58, _⟩ => ⟨S500000x128, .bf16⟩
  | .hbm, ⟨59, _⟩ => ⟨S_, .i32⟩
  | .hbm, ⟨60, _⟩ => ⟨S125000, .i32⟩
  | .hbm, ⟨61, _⟩ => ⟨S125000, .i1⟩
  | .hbm, ⟨62, _⟩ => ⟨S_, .i32⟩
  | .hbm, ⟨63, _⟩ => ⟨S125000, .i32⟩
  | .hbm, ⟨64, _⟩ => ⟨S125000, .i32⟩
  | .hbm, ⟨65, _⟩ => ⟨S125000, .i32⟩
  | .hbm, ⟨66, _⟩ => ⟨S125000x1, .i32⟩
  | .hbm, ⟨67, _⟩ => ⟨S500000x128, .bf16⟩
  | .hbm, ⟨68, _⟩ => ⟨S256x256, .bf16⟩
  | .hbm, ⟨69, _⟩ => ⟨S500000x256, .f32⟩
  | .local _ .vmem, ⟨0, _⟩ => ⟨S4096, .i32⟩
  | .local _ .vmem, ⟨1, _⟩ => ⟨S4096, .i32⟩
  | .local _ .vmem, ⟨2, _⟩ => ⟨S1000x128, .bf16⟩
  | .local _ .vmem, ⟨3, _⟩ => ⟨S4096x128, .bf16⟩
  | .local _ .vmem, ⟨4, _⟩ => ⟨S4096x128, .bf16⟩
  | .local _ .vmem, ⟨5, _⟩ => ⟨S5000x64, .f32⟩
  | .local _ .vmem, ⟨6, _⟩ => ⟨S5000x64, .f32⟩
  | .local _ .vmem, ⟨7, _⟩ => ⟨S128x64, .f32⟩
  | .local _ .vmem, ⟨8, _⟩ => ⟨S128, .f32⟩
  | .local _ .vmem, ⟨9, _⟩ => ⟨S5000x128, .bf16⟩
  | .local _ .vmem, ⟨10, _⟩ => ⟨S5000x128, .bf16⟩
  | .local _ .vmem, ⟨11, _⟩ => ⟨S5000x64, .f32⟩
  | .local _ .vmem, ⟨12, _⟩ => ⟨S5000x64, .f32⟩
  | .local _ .vmem, ⟨13, _⟩ => ⟨S128x64, .f32⟩
  | .local _ .vmem, ⟨14, _⟩ => ⟨S128, .f32⟩
  | .local _ .vmem, ⟨15, _⟩ => ⟨S5000x128, .bf16⟩
  | .local _ .vmem, ⟨16, _⟩ => ⟨S5000x128, .bf16⟩
  | .local _ .vmem, ⟨17, _⟩ => ⟨S5000x64, .f32⟩
  | .local _ .vmem, ⟨18, _⟩ => ⟨S5000x64, .f32⟩
  | .local _ .vmem, ⟨19, _⟩ => ⟨S128x64, .f32⟩
  | .local _ .vmem, ⟨20, _⟩ => ⟨S128, .f32⟩
  | .local _ .vmem, ⟨21, _⟩ => ⟨S5000x128, .bf16⟩
  | .local _ .vmem, ⟨22, _⟩ => ⟨S5000x128, .bf16⟩
  | .local _ .vmem, ⟨23, _⟩ => ⟨S5000x64, .f32⟩
  | .local _ .vmem, ⟨24, _⟩ => ⟨S5000x64, .f32⟩
  | .local _ .vmem, ⟨25, _⟩ => ⟨S128x64, .f32⟩
  | .local _ .vmem, ⟨26, _⟩ => ⟨S128, .f32⟩
  | .local _ .vmem, ⟨27, _⟩ => ⟨S5000x128, .bf16⟩
  | .local _ .vmem, ⟨28, _⟩ => ⟨S5000x128, .bf16⟩
  | .local _ .vmem, ⟨29, _⟩ => ⟨S5000x128, .bf16⟩
  | .local _ .vmem, ⟨30, _⟩ => ⟨S5000x128, .bf16⟩
  | .local _ .vmem, ⟨31, _⟩ => ⟨S5000x128, .bf16⟩
  | .local _ .vmem, ⟨32, _⟩ => ⟨S5000x128, .bf16⟩
  | .local _ .vmem, ⟨33, _⟩ => ⟨S256x256, .bf16⟩
  | .local _ .vmem, ⟨34, _⟩ => ⟨S256, .f32⟩
  | .local _ .vmem, ⟨35, _⟩ => ⟨S5000x256, .f32⟩
  | .local _ .vmem, ⟨36, _⟩ => ⟨S5000x256, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_c_0 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem4_0 : DmaSem sig := 35
abbrev cc5_sem4_1 : DmaSem sig := 36

abbrev nD : Nat := 1
abbrev τ : Topo := Topo.v7x

variable {F : FTy → Type} [FloatOps F]

abbrev grid0 : Pipeline.Grid := ⟨1, ![123], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bitsLt_bf16_f32 : FTy.bits .bf16 < FTy.bits .f32
  pads_S500000_S503808_038080 : S500000.Pads (![0] : Fin 1 → Nat) ![3808] ![0] S503808
  h_S_ : 0 < S_.numel
  inb_S4096_S4096_0 : ∀ a, (![0] : Fin 1 → Nat) a + S4096.size a ≤ S4096.size a
  h_S4096 : 0 < S4096.numel
  shapeCasts_S4096_S4096 : S4096.ShapeCasts S4096
  iota_S4096x1000_d1_w32 : S4096x1000.Iotas .tc 32 [1]
  shapeCasts_S4096_S4096x1 : S4096.ShapeCasts S4096x1
  broadcasts_S4096x1_S4096x1000 : S4096x1.Broadcasts S4096x1000
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  slices_S503808x128_S500000x128_0_0 : S503808x128.Slices ![0, 0] S500000x128
  inb_S5000x64_S5000x64_0_0 : ∀ a, (![0, 0] : Fin 2 → Nat) a + S5000x64.size a ≤ S5000x64.size a
  h_S5000x64 : 0 < S5000x64.numel
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  transposes_S128x64_p1_0_S64x128 : S128x64.Transposes [1, 0] S64x128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S500000x128 : S_.BroadcastsInDim S500000x128 (![] : Fin 0 → Fin S500000x128.rank)
  bcast_S_S125000 : S_.BroadcastsInDim S125000 (![] : Fin 0 → Fin S125000.rank)
  bcast_S125000_S125000x1_0 : S125000.BroadcastsInDim S125000x1 (![0] : Fin 1 → Fin S125000x1.rank)
  shapeCasts_S5000x128_S5000x128 : S5000x128.ShapeCasts S5000x128
  concatenates_S5000x128_S5000x128_S5000x256_d1 : Shape.Concatenates [S5000x128, S5000x128] S5000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  dot_S4096x1000_S1000x128_S4096x128_1_0_0_1_n_n_wf : DotDims.WF S4096x1000 S1000x128 S4096x128 [1] [0] [0] [1] [] []
  dot_S5000x64_S64x128_S5000x128_1_0_0_1_n_n_wf : DotDims.WF S5000x64 S64x128 S5000x128 [1] [0] [0] [1] [] []
  scatter_S500000x128_S125000x1_S125000x128_1_0_0_1_wf : ScatterDims.WF S500000x128 S125000x1 S125000x128 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S503808.size a
  hwx0_0 : ∀ i : grid0.Coords, EltTy.bits .i32 = 32 ∨ (Rect.block (s := S503808) S4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .bf16 = 32 ∨ (Rect.block (s := S1000x128) S1000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S503808x128.size a
  hwx0_2 : ∀ i : grid0.Coords, EltTy.bits .bf16 = 32 ∨ (Rect.block (s := S503808x128) S4096x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S125000x64.size a
  hwx1_0 : ∀ i : grid1.Coords, EltTy.bits .f32 = 32 ∨ (Rect.block (s := S125000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S125000x128.size a
  hwx1_3 : ∀ i : grid1.Coords, EltTy.bits .bf16 = 32 ∨ (Rect.block (s := S125000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S125000x64.size a
  hwx2_0 : ∀ i : grid2.Coords, EltTy.bits .f32 = 32 ∨ (Rect.block (s := S125000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S125000x128.size a
  hwx2_3 : ∀ i : grid2.Coords, EltTy.bits .bf16 = 32 ∨ (Rect.block (s := S125000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S125000x64.size a
  hwx3_0 : ∀ i : grid3.Coords, EltTy.bits .f32 = 32 ∨ (Rect.block (s := S125000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S125000x128.size a
  hwx3_3 : ∀ i : grid3.Coords, EltTy.bits .bf16 = 32 ∨ (Rect.block (s := S125000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S125000x64.size a
  hwx4_0 : ∀ i : grid4.Coords, EltTy.bits .f32 = 32 ∨ (Rect.block (s := S125000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S125000x128.size a
  hwx4_3 : ∀ i : grid4.Coords, EltTy.bits .bf16 = 32 ∨ (Rect.block (s := S125000x128) S5000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S500000x128.size a
  hwx5_0 : ∀ i : grid5.Coords, EltTy.bits .bf16 = 32 ∨ (Rect.block (s := S500000x128) S5000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S500000x128.size a
  hwx5_1 : ∀ i : grid5.Coords, EltTy.bits .bf16 = 32 ∨ (Rect.block (s := S500000x128) S5000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .bf16 = 32 ∨ (Rect.block (s := S256x256) S256x256.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x256.size a ≤ S500000x256.size a
  hwx5_4 : ∀ i : grid5.Coords, EltTy.bits .f32 = 32 ∨ (Rect.block (s := S500000x256) S5000x256.size (cc5_transform_4 i) (hinb5_4 i)).WholeWords (EltTy.packing .f32)

variable [Facts₀]

def dot_S4096x1000_S1000x128_S4096x128_1_0_0_1_n_n : DotDims S4096x1000 S1000x128 S4096x128 where
  lhsContracting := [1]
  rhsContracting := [0]
  lhsNonContracting := [0]
  rhsNonContracting := [1]
  lhsBatch := []
  rhsBatch := []
  wf := dot_S4096x1000_S1000x128_S4096x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S500000x128_S125000x1_S125000x128_1_0_0_1 : ScatterDims S500000x128 S125000x1 S125000x128 where
  updateWindowDims := [1]
  insertedWindowDims := [0]
  scatterDimsToOperandDims := [0]
  indexVectorDim := 1
  wf := scatter_S500000x128_S125000x1_S125000x128_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v1) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg4) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg6) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg8) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg17) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v7) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v3) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v37) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg19) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v38) S5000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S500000 : Shape := ⟨1, ![500000]⟩
abbrev S125000 : Shape := ⟨1, ![125000]⟩
abbrev S125000x64 : Shape := ⟨2, ![125000, 64]⟩
abbrev S1000x128 : Shape := ⟨2, ![1000, 128]⟩
abbrev S128x64 : Shape := ⟨2, ![128, 64]⟩
abbrev S128 : Shape := ⟨1, ![128]⟩
abbrev S256x256 : Shape := ⟨2, ![256, 256]⟩
abbrev S256 : Shape := ⟨1, ![256]⟩
abbrev S_ : Shape := ⟨0, ![]⟩
abbrev S500000x1 : Shape := ⟨2, ![500000, 1]⟩
abbrev S500000x128 : Shape := ⟨2, ![500000, 128]⟩
abbrev S64x128 : Shape := ⟨2, ![64, 128]⟩
abbrev S125000x128 : Shape := ⟨2, ![125000, 128]⟩
abbrev S1x128 : Shape := ⟨2, ![1, 128]⟩
abbrev S125000x1 : Shape := ⟨2, ![125000, 1]⟩
abbrev S500000x256 : Shape := ⟨2, ![500000, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S500000, .i32⟩
  | .hbm, ⟨1, _⟩ => ⟨S125000, .i32⟩
  | .hbm, ⟨2, _⟩ => ⟨S125000x64, .f32⟩
  | .hbm, ⟨3, _⟩ => ⟨S125000, .i32⟩
  | .hbm, ⟨4, _⟩ => ⟨S125000x64, .f32⟩
  | .hbm, ⟨5, _⟩ => ⟨S125000, .i32⟩
  | .hbm, ⟨6, _⟩ => ⟨S125000x64, .f32⟩
  | .hbm, ⟨7, _⟩ => ⟨S125000, .i32⟩
  | .hbm, ⟨8, _⟩ => ⟨S125000x64, .f32⟩
  | .hbm, ⟨9, _⟩ => ⟨S1000x128, .f32⟩
  | .hbm, ⟨10, _⟩ => ⟨S128x64, .f32⟩
  | .hbm, ⟨11, _⟩ => ⟨S128, .f32⟩
  | .hbm, ⟨12, _⟩ => ⟨S128x64, .f32⟩
  | .hbm, ⟨13, _⟩ => ⟨S128, .f32⟩
  | .hbm, ⟨14, _⟩ => ⟨S128x64, .f32⟩
  | .hbm, ⟨15, _⟩ => ⟨S128, .f32⟩
  | .hbm, ⟨16, _⟩ => ⟨S128x64, .f32⟩
  | .hbm, ⟨17, _⟩ => ⟨S128, .f32⟩
  | .hbm, ⟨18, _⟩ => ⟨S256x256, .f32⟩
  | .hbm, ⟨19, _⟩ => ⟨S256, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S_, .f32⟩
  | .hbm, ⟨30, _⟩ => ⟨S500000x128, .f32⟩
  | .hbm, ⟨31, _⟩ => ⟨S64x128, .f32⟩
  | .hbm, ⟨32, _⟩ => ⟨S125000x128, .f32⟩
  | .hbm, ⟨33, _⟩ => ⟨S1x128, .f32⟩
  | .hbm, ⟨34, _⟩ => ⟨S125000x128, .f32⟩
  | .hbm, ⟨35, _⟩ => ⟨S125000x128, .f32⟩
  | .hbm, ⟨36, _⟩ => ⟨S_, .i32⟩
  | .hbm, ⟨37, _⟩ => ⟨S125000, .i32⟩
  | .hbm, ⟨38, _⟩ => ⟨S125000, .i1⟩
  | .hbm, ⟨39, _⟩ => ⟨S_, .i32⟩
  | .hbm, ⟨40, _⟩ => ⟨S125000, .i32⟩
  | .hbm, ⟨41, _⟩ => ⟨S125000, .i32⟩
  | .hbm, ⟨42, _⟩ => ⟨S125000, .i32⟩
  | .hbm, ⟨43, _⟩ => ⟨S125000x1, .i32⟩
  | .hbm, ⟨44, _⟩ => ⟨S500000x128, .f32⟩
  | .hbm, ⟨45, _⟩ => ⟨S64x128, .f32⟩
  | .hbm, ⟨46, _⟩ => ⟨S125000x128, .f32⟩
  | .hbm, ⟨47, _⟩ => ⟨S1x128, .f32⟩
  | .hbm, ⟨48, _⟩ => ⟨S125000x128, .f32⟩
  | .hbm, ⟨49, _⟩ => ⟨S125000x128, .f32⟩
  | .hbm, ⟨50, _⟩ => ⟨S_, .i32⟩
  | .hbm, ⟨51, _⟩ => ⟨S125000, .i32⟩
  | .hbm, ⟨52, _⟩ => ⟨S125000, .i1⟩
  | .hbm, ⟨53, _⟩ => ⟨S_, .i32⟩
  | .hbm, ⟨54, _⟩ => ⟨S125000, .i32⟩
  | .hbm, ⟨55, _⟩ => ⟨S125000, .i32⟩
  | .hbm, ⟨56, _⟩ => ⟨S125000, .i32⟩
  | .hbm, ⟨57, _⟩ => ⟨S125000x1, .i32⟩
  | .hbm, ⟨58, _⟩ => ⟨S500000x128, .f32⟩
  | .hbm, ⟨59, _⟩ => ⟨S64x128, .f32⟩
  | .hbm, ⟨60, _⟩ => ⟨S125000x128, .f32⟩
  | .hbm, ⟨61, _⟩ => ⟨S1x128, .f32⟩
  | .hbm, ⟨62, _⟩ => ⟨S125000x128, .f32⟩
  | .hbm, ⟨63, _⟩ => ⟨S125000x128, .f32⟩
  | .hbm, ⟨64, _⟩ => ⟨S_, .i32⟩
  | .hbm, ⟨65, _⟩ => ⟨S125000, .i32⟩
  | .hbm, ⟨66, _⟩ => ⟨S125000, .i1⟩
  | .hbm, ⟨67, _⟩ => ⟨S_, .i32⟩
  | .hbm, ⟨68, _⟩ => ⟨S125000, .i32⟩
  | .hbm, ⟨69, _⟩ => ⟨S125000, .i32⟩
  | .hbm, ⟨70, _⟩ => ⟨S125000, .i32⟩
  | .hbm, ⟨71, _⟩ => ⟨S125000x1, .i32⟩
  | .hbm, ⟨72, _⟩ => ⟨S500000x128, .f32⟩
  | .hbm, ⟨73, _⟩ => ⟨S64x128, .f32⟩
  | .hbm, ⟨74, _⟩ => ⟨S125000x128, .f32⟩
  | .hbm, ⟨75, _⟩ => ⟨S1x128, .f32⟩
  | .hbm, ⟨76, _⟩ => ⟨S125000x128, .f32⟩
  | .hbm, ⟨77, _⟩ => ⟨S125000x128, .f32⟩
  | .hbm, ⟨78, _⟩ => ⟨S_, .i32⟩
  | .hbm, ⟨79, _⟩ => ⟨S125000, .i32⟩
  | .hbm, ⟨80, _⟩ => ⟨S125000, .i1⟩
  | .hbm, ⟨81, _⟩ => ⟨S_, .i32⟩
  | .hbm, ⟨82, _⟩ => ⟨S125000, .i32⟩
  | .hbm, ⟨83, _⟩ => ⟨S125000, .i32⟩
  | .hbm, ⟨84, _⟩ => ⟨S125000, .i32⟩
  | .hbm, ⟨85, _⟩ => ⟨S125000x1, .i32⟩
  | .hbm, ⟨86, _⟩ => ⟨S500000x128, .f32⟩
  | .hbm, ⟨87, _⟩ => ⟨S500000x256, .f32⟩
  | .hbm, ⟨88, _⟩ => ⟨S256x256, .f32⟩
  | .hbm, ⟨89, _⟩ => ⟨S500000x256, .f32⟩
  | .hbm, ⟨90, _⟩ => ⟨S1x256, .f32⟩
  | .hbm, ⟨91, _⟩ => ⟨S500000x256, .f32⟩
  | .hbm, ⟨92, _⟩ => ⟨S500000x256, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_1 : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_3 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_5 : Ref sig .tc := ⟨.hbm, 64, rfl⟩
abbrev main_v37 : Ref sig .tc := ⟨.hbm, 65, rfl⟩
abbrev main_v38 : Ref sig .tc := ⟨.hbm, 66, rfl⟩
abbrev main_c_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_7 : Ref sig .tc := ⟨.hbm, 78, rfl⟩
abbrev main_v49 : Ref sig .tc := ⟨.hbm, 79, rfl⟩
abbrev main_v50 : Ref sig .tc := ⟨.hbm, 80, rfl⟩
abbrev main_c_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  transposes_S128x64_S64x128_1_0 : S128x64.Transposes [1, 0] S64x128
  bcast_S128_S1x128_1 : S128.BroadcastsInDim S1x128 (![1] : Fin 1 → Fin S1x128.rank)
  bcast_S1x128_S125000x128_0_1 : S1x128.BroadcastsInDim S125000x128 (![0, 1] : Fin 2 → Fin S125000x128.rank)
  bcast_S_S125000 : S_.BroadcastsInDim S125000 (![] : Fin 0 → Fin S125000.rank)
  bcast_S125000_S125000x1_0 : S125000.BroadcastsInDim S125000x1 (![0] : Fin 1 → Fin S125000x1.rank)
  concatenates_S500000x128_S500000x128_S500000x256_d1 : Shape.Concatenates [S500000x128, S500000x128] S500000x256 1
  transposes_S256x256_S256x256_1_0 : S256x256.Transposes [1, 0] S256x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  gather_S1000x128_S500000x1_S500000x128_1_0_n_n_0_1_1128_wf : GatherDims.WF S1000x128 S500000x1 S500000x128 [1] [0] [] [0] [] 1 ![1, 128]
  dot_S125000x64_S64x128_S125000x128_1_0_0_1_n_n_wf : DotDims.WF S125000x64 S64x128 S125000x128 [1] [0] [0] [1] [] []
  scatter_S500000x128_S125000x1_S125000x128_1_0_0_1_wf : ScatterDims.WF S500000x128 S125000x1 S125000x128 [1] [0] [0] 1
  dot_S500000x256_S256x256_S500000x256_1_0_0_1_n_n_wf : DotDims.WF S500000x256 S256x256 S500000x256 [1] [0] [0] [1] [] []

variable [Facts₀]

def gather_S1000x128_S500000x1_S500000x128_1_0_n_n_0_1_1128 : GatherDims S1000x128 S500000x1 S500000x128 where
  offsetDims := [1]
  collapsedSliceDims := [0]
  operandBatchingDims := []
  startIndicesBatchingDims := []
  startIndexMap := [0]
  indexVectorDim := 1
  sliceSizes := ![1, 128]
  wf := gather_S1000x128_S500000x1_S500000x128_1_0_n_n_0_1_1128_wf
def dot_S125000x64_S64x128_S125000x128_1_0_0_1_n_n : DotDims S125000x64 S64x128 S125000x128 where
  lhsContracting := [1]
  rhsContracting := [0]
  lhsNonContracting := [0]
  rhsNonContracting := [1]
  lhsBatch := []
  rhsBatch := []
  wf := dot_S125000x64_S64x128_S125000x128_1_0_0_1_n_n_wf
def scatter_S500000x128_S125000x1_S125000x128_1_0_0_1 : ScatterDims S500000x128 S125000x1 S125000x128 where
  updateWindowDims := [1]
  insertedWindowDims := [0]
  scatterDimsToOperandDims := [0]
  indexVectorDim := 1
  wf := scatter_S500000x128_S125000x1_S125000x128_1_0_0_1_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.Boundaries.lean ====
import proofs.«431102_j70557722739198_1_alg».proof.Proof.Gen.KernelIdeal.Frame

set_option maxRecDepth 16384

noncomputable section

namespace Cert.KernelIdeal.Thread

open Idealize.ShloMosaic Idealize.ShloMosaic.TcCoe Idealize.ShloMosaic.Tactic Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A buffer no operation of a host stretch writes holds after the stretch what it held before. -/
local macro "host_skip" : tactic =>
  `(tactic| (refine (StableHlo.after_of_forall_not_mem _ _ (List.forall_iff_forall_mem.mp ?_)).trans ?_
             · simp only [hostOps0, hostOps0_1, hostOps1, hostOps5, List.flatten_cons, List.flatten_nil, List.append_nil,
                 List.cons_append, List.nil_append, List.Forall, StableHlo.nullary_writes, StableHlo.unary_writes,
                 StableHlo.binary_writes, StableHlo.ternary_writes, StableHlo.quaternary_writes, StableHlo.reshape_writes,
                 StableHlo.binaryIndexed_writes, Finset.mem_singleton]
               repeat' apply And.intro
               all_goals exact StableHlo.devRef_ne_of_ne (by decide)))

/-- A region's exit contents at a buffer that is none of its arrays are its entry contents there; these macros walk
    a buffer nobody writes from a segment boundary back to the launch memory. -/
local macro "from_W4" : tactic =>
  `(tactic| (show StableHlo.after hostOps1 (W3 _ _ _) _ = _
             host_skip
             refine (W3_of_ne _ _ _ _ (by decide)).trans ?_
             show StableHlo.after hostOps0_1 (W1 _ _ _) _ = _
             host_skip
             show StableHlo.after hostOps0 (W0 _ _ _) _ = _
             host_skip
             rfl))
local macro "from_W5" : tactic => `(tactic| (refine (W5_of_ne _ _ _ _ (by decide)).trans ?_; from_W4))
local macro "from_W6" : tactic => `(tactic| (refine (W6_of_ne _ _ _ _ (by decide)).trans ?_; from_W5))
local macro "from_W7" : tactic => `(tactic| (refine (W7_of_ne _ _ _ _ (by decide)).trans ?_; from_W6))
local macro "from_W8" : tactic => `(tactic| (refine (W8_of_ne _ _ _ _ (by decide)).trans ?_; from_W7))
local macro "from_W9" : tactic =>
  `(tactic| (show StableHlo.after hostOps5 (W8 _ _ _) _ = _
             host_skip
             from_W8))

/-! ## What the host stretches leave in the buffers the regions read -/

/-- The index vector padded with zeros to 503808 entries, as region 0 finds it. -/
theorem W2_v1 (c : Dev nD) :
    W2 m ρ c (Proc.devRef .tc main_v1)
      = pad S503808 ![0] ![3808] ![0] (m ((c : Thread nD τ).loc main_arg0)) (constantI S_ 32 0#32) pads_S500000_S503808_038080 h_S_ := by
  show StableHlo.after hostOps0_1 (StableHlo.after hostOps0 (W0 m ρ c)) (Proc.devRef .tc main_v1) = _
  after_results
  rfl

/-- The table in the narrower float format, as region 0 finds it. -/
theorem W2_v0 (c : Dev nD) :
    W2 m ρ c (Proc.devRef .tc main_v0) = truncf .bf16 (m ((c : Thread nD τ).loc main_arg9)) bitsLt_bf16_f32 := by
  show StableHlo.after hostOps0_1 (StableHlo.after hostOps0 (W0 m ρ c)) (Proc.devRef .tc main_v0) = _
  after_results

/-- Region 0's output cut back to the first 500000 rows. -/
theorem W4_v3 (c : Dev nD) :
    W4 m ρ c (Proc.devRef .tc main_v3)
      = extractStridedSlice S500000x128 ![0, 0] (W3 m ρ c (Proc.devRef .tc main_v2)) slices_S503808x128_S500000x128_0_0 := by
  show StableHlo.after hostOps1 (W3 m ρ c) (Proc.devRef .tc main_v3) = _
  after_results

/-- An index vector with the row count 500000 added to its negative entries, as a column. -/
abbrev wrapIdx (i : IVec S125000 32) : IVec S125000x1 32 :=
  broadcastInDim S125000x1 ![0] bcast_S125000_S125000x1_0
    (select (cmpi .slt i (broadcastInDim S125000 ![] bcast_S_S125000 (constantI S_ 32 0#32)))
      (addi i (broadcastInDim S125000 ![] bcast_S_S125000 (constantI S_ 32 500000#32))) i)

/-- Four row scatters in a row, each overwriting the rows its index vector names with its update's rows. -/
abbrev scat4 {α : Type} (base : S500000x128.Idx → α) (i0 i1 i2 i3 : IVec S125000 32) (u0 u1 u2 u3 : S125000x128.Idx → α) :
    S500000x128.Idx → α :=
  Host.scatter scatter_S500000x128_S125000x1_S125000x128_1_0_0_1 (fun _ b => b)
    (Host.scatter scatter_S500000x128_S125000x1_S125000x128_1_0_0_1 (fun _ b => b)
      (Host.scatter scatter_S500000x128_S125000x1_S125000x128_1_0_0_1 (fun _ b => b)
        (Host.scatter scatter_S500000x128_S125000x1_S125000x128_1_0_0_1 (fun _ b => b) base (wrapIdx i0) u0)
        (wrapIdx i1) u1)
      (wrapIdx i2) u2)
    (wrapIdx i3) u3

set_option maxHeartbeats 4000000 in
/-- The scattered rows as region 5 finds them: the four regions' outputs scattered in order into the zero array. -/
theorem W9_v36 (c : Dev nD) :
    W9 m ρ c (Proc.devRef .tc main_v36)
      = scat4 (broadcastInDim S500000x128 ![] bcast_S_S500000x128 (constant (F := F) S_ .bf16 0x0000#16))
          (W8 m ρ c (Proc.devRef .tc main_arg1)) (W8 m ρ c (Proc.devRef .tc main_arg3))
          (W8 m ρ c (Proc.devRef .tc main_arg5)) (W8 m ρ c (Proc.devRef .tc main_arg7))
          (W8 m ρ c (Proc.devRef .tc main_v4)) (W8 m ρ c (Proc.devRef .tc main_v5))
          (W8 m ρ c (Proc.devRef .tc main_v6)) (W8 m ρ c (Proc.devRef .tc main_v7)) := by
  show StableHlo.after hostOps5 (W8 m ρ c) (Proc.devRef .tc main_v36) = _
  after_results_simp

/-- The merge weights in the narrower float format, as region 5 finds them. -/
theorem W9_v37 (c : Dev nD) :
    W9 m ρ c (Proc.devRef .tc main_v37) = truncf .bf16 (W8 m ρ c (Proc.devRef .tc main_arg18)) bitsLt_bf16_f32 := by
  show StableHlo.after hostOps5 (W8 m ρ c) (Proc.devRef .tc main_v37) = _
  after_results

/-! ## The argument arrays at the boundaries where a region or the last host stretch reads them -/

theorem W4_arg2 (c : Dev nD) : W4 m ρ c (Proc.devRef .tc main_arg2) = m ((c : Thread nD τ).loc main_arg2) := by from_W4
theorem W4_arg10 (c : Dev nD) : W4 m ρ c (Proc.devRef .tc main_arg10) = m ((c : Thread nD τ).loc main_arg10) := by from_W4
theorem W4_arg11 (c : Dev nD) : W4 m ρ c (Proc.devRef .tc main_arg11) = m ((c : Thread nD τ).loc main_arg11) := by from_W4
theorem W5_arg4 (c : Dev nD) : W5 m ρ c (Proc.devRef .tc main_arg4) = m ((c : Thread nD τ).loc main_arg4) := by from_W5
theorem W5_arg12 (c : Dev nD) : W5 m ρ c (Proc.devRef .tc main_arg12) = m ((c : Thread nD τ).loc main_arg12) := by from_W5
theorem W5_arg13 (c : Dev nD) : W5 m ρ c (Proc.devRef .tc main_arg13) = m ((c : Thread nD τ).loc main_arg13) := by from_W5
theorem W6_arg6 (c : Dev nD) : W6 m ρ c (Proc.devRef .tc main_arg6) = m ((c : Thread nD τ).loc main_arg6) := by from_W6
theorem W6_arg14 (c : Dev nD) : W6 m ρ c (Proc.devRef .tc main_arg14) = m ((c : Thread nD τ).loc main_arg14) := by from_W6
theorem W6_arg15 (c : Dev nD) : W6 m ρ c (Proc.devRef .tc main_arg15) = m ((c : Thread nD τ).loc main_arg15) := by from_W6
theorem W7_arg8 (c : Dev nD) : W7 m ρ c (Proc.devRef .tc main_arg8) = m ((c : Thread nD τ).loc main_arg8) := by from_W7
theorem W7_arg16 (c : Dev nD) : W7 m ρ c (Proc.devRef .tc main_arg16) = m ((c : Thread nD τ).loc main_arg16) := by from_W7
theorem W7_arg17 (c : Dev nD) : W7 m ρ c (Proc.devRef .tc main_arg17) = m ((c : Thread nD τ).loc main_arg17) := by from_W7
theorem W8_arg1 (c : Dev nD) : W8 m ρ c (Proc.devRef .tc main_arg1) = m ((c : Thread nD τ).loc main_arg1) := by from_W8
theorem W8_arg3 (c : Dev nD) : W8 m ρ c (Proc.devRef .tc main_arg3) = m ((c : Thread nD τ).loc main_arg3) := by from_W8
theorem W8_arg5 (c : Dev nD) : W8 m ρ c (Proc.devRef .tc main_arg5) = m ((c : Thread nD τ).loc main_arg5) := by from_W8
theorem W8_arg7 (c : Dev nD) : W8 m ρ c (Proc.devRef .tc main_arg7) = m ((c : Thread nD τ).loc main_arg7) := by from_W8
theorem W8_arg18 (c : Dev nD) : W8 m ρ c (Proc.devRef .tc main_arg18) = m ((c : Thread nD τ).loc main_arg18) := by from_W8
theorem W9_arg19 (c : Dev nD) : W9 m ρ c (Proc.devRef .tc main_arg19) = m ((c : Thread nD τ).loc main_arg19) := by from_W9

/-! ## The regions' outputs at the later boundaries where they are read -/

theorem W8_v4 (c : Dev nD) : W8 m ρ c (Proc.devRef .tc main_v4) = W5 m ρ c (Proc.devRef .tc main_v4) :=
  (W8_of_ne m ρ c main_v4 (by decide)).trans ((W7_of_ne m ρ c main_v4 (by decide)).trans (W6_of_ne m ρ c main_v4 (by decide)))
theorem W8_v5 (c : Dev nD) : W8 m ρ c (Proc.devRef .tc main_v5) = W6 m ρ c (Proc.devRef .tc main_v5) :=
  (W8_of_ne m ρ c main_v5 (by decide)).trans (W7_of_ne m ρ c main_v5 (by decide))
theorem W8_v6 (c : Dev nD) : W8 m ρ c (Proc.devRef .tc main_v6) = W7 m ρ c (Proc.devRef .tc main_v6) :=
  W8_of_ne m ρ c main_v6 (by decide)
theorem W9_v3 (c : Dev nD) : W9 m ρ c (Proc.devRef .tc main_v3) = W4 m ρ c (Proc.devRef .tc main_v3) := by
  show StableHlo.after hostOps5 (W8 m ρ c) (Proc.devRef .tc main_v3) = _
  host_skip
  exact (W8_of_ne m ρ c main_v3 (by decide)).trans ((W7_of_ne m ρ c main_v3 (by decide)).trans
    ((W6_of_ne m ρ c main_v3 (by decide)).trans (W5_of_ne m ρ c main_v3 (by decide))))

/-! ## A region's output array at the region's exit is what its pipeline leaves there -/

theorem W3_v2 (c : Dev nD) : W3 m ρ c (Proc.devRef .tc main_v2) = (dat0 (V2 m ρ) c).arrAt 2 cfg0.N := W3_arr m ρ c 2
theorem W5_v4 (c : Dev nD) : W5 m ρ c (Proc.devRef .tc main_v4) = (dat1 (V4 m ρ) c).arrAt 3 cfg1.N := W5_arr m ρ c 3
theorem W6_v5 (c : Dev nD) : W6 m ρ c (Proc.devRef .tc main_v5) = (dat2 (V5 m ρ) c).arrAt 3 cfg2.N := W6_arr m ρ c 3
theorem W7_v6 (c : Dev nD) : W7 m ρ c (Proc.devRef .tc main_v6) = (dat3 (V6 m ρ) c).arrAt 3 cfg3.N := W7_arr m ρ c 3
theorem W8_v7 (c : Dev nD) : W8 m ρ c (Proc.devRef .tc main_v7) = (dat4 (V7 m ρ) c).arrAt 3 cfg4.N := W8_arr m ρ c 3
theorem W10_v38 (c : Dev nD) : W10 m ρ c (Proc.devRef .tc main_v38) = (dat5 (V9 m ρ) c).arrAt 4 cfg5.N := W10_arr m ρ c 4

end Cert.KernelIdeal.Thread

end
-- ==== Proof.Spec.lean ====
/-
  The three whole-array functions the program is made of, on the extended reals, index by index.

  * `dense X W b`: row `i` of `X` against row `j` of `W` (so `X · Wᵀ`), plus the bias entry `b j`.
  * `hcat128 A B`: the columns of `A` followed by the columns of `B` (128 columns each).
  * `onehotRows idx T`: row `r` is the sum over the table's rows `k` of `[idx r = k] · T k`, the product of the
    one-hot encoding of `idx r` with the table.
-/
import Idealize.ShloMosaic.PureOps.Ideal
import Idealize.ShloMosaic.Lib.ValueIdx

noncomputable section

namespace Cert.Emb

open Idealize.ShloMosaic Idealize.ShloMosaic.ValueIdx

/-- `X · Wᵀ + b`: entry `(i, j)` is `∑ k, X (i, k) * W (j, k)`, plus `b j`. -/
def dense {M K N : ℕ} (X : (⟨2, ![M, K]⟩ : Shape).Idx → EReal) (W : (⟨2, ![N, K]⟩ : Shape).Idx → EReal)
    (b : (⟨1, ![N]⟩ : Shape).Idx → EReal) : (⟨2, ![M, N]⟩ : Shape).Idx → EReal :=
  fun j => (∑ k : Fin K, X (ix2 (j 0) k) * W (ix2 (j 1) k)) + b (ix1 (j 1))

/-- The columns of `A`, then the columns of `B`. -/
def hcat128 {M : ℕ} (A B : (⟨2, ![M, 128]⟩ : Shape).Idx → EReal) : (⟨2, ![M, 256]⟩ : Shape).Idx → EReal :=
  fun j => if h : (j 1).val < 128 then A (ix2 (j 0) ⟨(j 1).val, h⟩)
    else B (ix2 (j 0) ⟨(j 1).val - 128, by have := idx2_lt1 j; omega⟩)

/-- Row `r` is `∑ k, [idx r = k] * T (k, ·)`: the one-hot encoding of `idx r` against the table. -/
def onehotRows {M C D : ℕ} (idx : (⟨1, ![M]⟩ : Shape).Idx → BitVec 32) (T : (⟨2, ![C, D]⟩ : Shape).Idx → EReal) :
    (⟨2, ![M, D]⟩ : Shape).Idx → EReal :=
  fun j => ∑ k : Fin C, (if idx (ix1 (j 0)) = BitVec.ofNat 32 k.val then (1 : EReal) else 0) * T (ix2 k (j 1))

end Cert.Emb

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.RegionEmbed.lean ====
import proofs.«431102_j70557722739198_1_alg».proof.Proof.Gen.KernelIdeal.Frame
import proofs.«431102_j70557722739198_1_alg».proof.Proof.Spec
import proofs.«431102_j70557722739198_1_alg».proof.Proof.LibPlainMatmul
import proofs.«431102_j70557722739198_1_alg».proof.Proof.LibKeepdims
import Idealize.ShloMosaic.Lib.Pipeline.Value
import Idealize.ShloMosaic.Lib.ValueIdx
import Idealize.ShloMosaic.Lib.StableHlo.Predicate

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen Cert.Emb
open Idealize.ShloMosaic.Pipeline (Dat Cfg Window)

variable (V : (c : Dev nD) → (b : Ref sig .tc) → Buf (Elt Ideal) ((c : Thread nD τ).loc b))

/-! ## The embedding region as one whole-array function

Each of the 123 grid points takes 4096 index words and the whole 1000 × 128 table, builds the 4096 × 1000 matrix whose
entry `(r, k)` is 1 when the `r`-th word is `k` and 0 otherwise, and multiplies it into the table. On the extended reals
the changes of float format are the identity, so entry `(r, j)` of the block written back is
`∑ k, [x r = k] * T (k, j)`. Block `t` holds rows `4096 t … 4096 t + 4095` of the output, and the 123 blocks tile its
503808 rows, so the output array is the one-hot rows of the whole index array against the table. -/

open Idealize.ShloMosaic.StableHlo.Predicate in
/-- The one-hot factor: the compare bit of a word against a column number, widened to 32 bits and converted, is 1 when
    the two words are equal and 0 when they are not. -/
theorem onehot_entry (a b : BitVec 32) :
    (FloatOps.sitofp (F := Ideal) .f32 ((IntOp.cmpi .eq a b).setWidth 32) : EReal) = if a = b then (1 : EReal) else 0 := by
  show (((((IntOp.cmpi .eq a b).setWidth 32).toInt : ℤ) : ℝ) : EReal) = _
  by_cases h : a = b
  · have hb : IntOp.cmpi .eq a b = 1#1 := cmpi_eq_iff.mpr h
    have h1 : ((1#1 : BitVec 1).setWidth 32).toInt = 1 := by decide
    rw [hb, if_pos h, h1]; simp
  · have hb : IntOp.cmpi .eq a b = 0#1 := eq_zero_of_ne_one (fun e => h (cmpi_eq_iff.mp e))
    have h0 : ((0#1 : BitVec 1).setWidth 32).toInt = 0 := by decide
    rw [hb, if_neg h, h0]; simp

/-- The product's dimension numbers are the plain ones: axis 1 of the left operand against axis 0 of the right. -/
theorem dot_eq_plain : dot_S4096x1000_S1000x128_S4096x128_1_0_0_1_n_n = DotDims.plain 4096 1000 128 := rfl

/-- The body's payload at an entry: the one-hot encoding of the block's index word of row `r`, against the table. -/
theorem pay_apply (x : Vec Ideal S4096 .i32) (T : Vec Ideal S1000x128 .bf16) (r : Fin 4096) (j : Fin 128) :
    k0_pay1 (F := Ideal) x T (ix2 r j)
      = ∑ k : Fin 1000, (if x (ix1 r) = BitVec.ofNat 32 k.val then (1 : EReal) else 0) * T (ix2 k j) := by
  unfold k0_pay1
  simp only [shapeCast_self]
  rw [truncf_apply, dot_eq_plain]
  refine (Cert.Lib.matmul_plain_zero_apply (φ₁ := .bf16) (φ₂ := .bf16) 4096 1000 128 none _ T (ix2 r j)).trans ?_
  refine Finset.sum_congr rfl fun k _ => ?_
  congr 1
  -- the left factor at (r, k): the word of row r, spread along the row, compared with the column number k
  show (FloatOps.sitofp (F := Ideal) .f32 ((IntOp.cmpi .eq _ _).setWidth 32) : EReal) = _
  rw [onehot_entry]
  show (if broadcastTo S4096x1000 (shapeCast S4096x1 x shapeCasts_S4096_S4096x1) broadcasts_S4096x1_S4096x1000 (ix2 r k)
      = iota .tc S4096x1000 32 [1] iota_S4096x1000_d1_w32 (ix2 r k) then (1 : EReal) else 0) = _
  rw [Cert.Lib.broadcastTo_a1_ab_apply, Cert.Lib.shapeCast_a_a1_apply, iota_single_apply]

theorem zero1 : (![0] : Fin 1 → Nat) = fun _ => 0 := funext fun a => by fin_cases a; rfl
theorem zero2 : (![0, 0] : Fin 2 → Nat) = fun _ => 0 := funext fun a => by fin_cases a <;> rfl

/-- The index maps over the grid: the index block moves with the output block along the rows, the table's block is
    always block (0, 0), and the output's block at point `t` is block (t, 0). -/
theorem index_facts : ∀ t : Fin cfg0.N, win0_0.index t (0 : Fin 1) = win0_2.index t (0 : Fin 2)
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the one-hot rows: row `r` of the block is row `4096 t + r` of the
    index array, the table's block is the whole table, and the column is kept. -/
theorem flushed_embed (c : Dev nD) (t : Fin cfg0.N) :
    (dat0 (F := Ideal) V c).flushed 2 t
      = ((cfg0.win 2).blk t).view.read (Elt Ideal) (onehotRows (V c main_v1) (V c main_v0)) := by
  show (cfg0.win 2).cut (grid0.coords t) ((dat0 V c).after 2 t) = _
  rw [after0_2]
  unfold out0_2
  rw [View.canon_unit_zero zero2]
  simp only [View.ld_unit_zero (S := S4096) zero1, View.ld_unit_zero (S := S1000x128) zero2]
  obtain ⟨e0, e1, e2, e3, e4⟩ := index_facts t
  funext y
  obtain ⟨r, j, rfl⟩ : ∃ (r : Fin 4096) (j : Fin 128), y = ix2 r j := ⟨y 0, y 1, eq_ix2 (n0 := 4096) (n1 := 128) y⟩
  show k0_pay1 (F := Ideal) (iblk0 V c 0 t) (iblk0 V c 1 t) (ix2 r j)
    = onehotRows (V c main_v1) (V c main_v0) (((cfg0.win 2).blk t).view.emb (ix2 r j))
  rw [pay_apply]
  unfold onehotRows
  have hx : iblk0 V c 0 t (ix1 r) = V c main_v1 (ix1 (((cfg0.win 2).blk t).view.emb (ix2 r j) 0)) := by
    show V c main_v1 (((cfg0.win 0).blk t).view.emb (ix1 r)) = _
    congr 1
    funext a; apply Fin.ext
    match a with
    | ⟨0, _⟩ =>
      show win0_0.index t (0 : Fin 1) * 4096 + 1 * r.val = win0_2.index t (0 : Fin 2) * 4096 + 1 * r.val
      omega
  have hT : ∀ k : Fin 1000, iblk0 V c 1 t (ix2 k j)
      = V c main_v0 (ix2 k (((cfg0.win 2).blk t).view.emb (ix2 r j) 1)) := fun k => by
    show V c main_v0 (((cfg0.win 1).blk t).view.emb (ix2 k j)) = _
    congr 1
    funext a; apply Fin.ext
    match a with
    | ⟨0, _⟩ =>
      show win0_1.index t (0 : Fin 2) * 1000 + 1 * k.val = k.val
      omega
    | ⟨1, _⟩ =>
      show win0_1.index t (1 : Fin 2) * 128 + 1 * j.val = win0_2.index t (1 : Fin 2) * 128 + 1 * j.val
      omega
  rw [hx]
  exact Finset.sum_congr rfl fun k _ => by rw [hT k]

/-- An index of the output array is in point `t`'s block iff each coordinate is in the block's range on its axis. -/
theorem mem_blk_embed (t : Fin cfg0.N) (i : S503808x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v2).slice (win0_2.rect t)).set ↔ _
  rw [View.set_slice_whole, Rect.mem_set_unit]
  exact Iff.rfl

/-- Row `r` of the output array lies in the block of point `r / 4096`: the 123 blocks of 4096 rows tile the 503808 rows. -/
theorem cover_embed (i : S503808x128.Idx) :
    ∃ t : Fin cfg0.N, (cfg0.win 2).flush t = true ∧ i ∈ ((cfg0.win 2).blk t).view.set := by
  have hi0 : (i 0).val < 503808 := (i 0).isLt
  have hi1 : (i 1).val < 128 := (i 1).isLt
  have hN : cfg0.N = 123 := N_0
  let t : Fin cfg0.N := ⟨(i 0).val / 4096, by rw [hN]; omega⟩
  obtain ⟨e0, e1, e2, e3, e4⟩ := index_facts t
  have ht : t.val = (i 0).val / 4096 := rfl
  refine ⟨t, flush0_2 t, ?_⟩
  rw [mem_blk_embed]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- Region 0 leaves in its output array the one-hot rows of the padded indices against the table, as the region
    finds them. -/
theorem embed_final (c : Dev nD) :
    (dat0 (F := Ideal) V c).arrAt 2 cfg0.N = onehotRows (V c main_v1) (V c main_v0) := by
  exact (dat0 (F := Ideal) V c).arrAt_eq_of_cover 2 (onehotRows (V c main_v1) (V c main_v0))
    (fun t _ => flushed_embed V c t) cover_embed

end Cert.KernelIdeal.Regions

end
-- ==== Proof.RegionMlp1.lean ====
import proofs.«431102_j70557722739198_1_alg».proof.Proof.Gen.KernelIdeal.Frame
import proofs.«431102_j70557722739198_1_alg».proof.Proof.Spec
import proofs.«431102_j70557722739198_1_alg».proof.Proof.LibPlainMatmul
import Idealize.ShloMosaic.Lib.ValueLayout
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen Cert.Emb
open Idealize.ShloMosaic.Pipeline (Dat Cfg Window)

variable (V : (c : Dev nD) → (b : Ref sig .tc) → Buf (Elt Ideal) ((c : Thread nD τ).loc b))

/-!
  A dense layer computed block of rows by block of rows.

  The grid has 25 points. Point `t` reads rows `5000 t … 5000 t + 4999` of the `125000 × 64` operand `X`, the whole
  `128 × 64` weight matrix `W` and the whole bias vector `b`, and writes rows `5000 t … 5000 t + 4999` of the
  `125000 × 128` result. On the extended reals the body's value at `(r, j)` of its block is
  `∑ k, X (r, k) * W (j, k) + b j`: the product of the block with the transposed weights, plus the bias row
  repeated down the rows (the changes of float format are the identity there). Read through the blocks' places in
  the arrays this is block `t` of `dense X W b`; the 25 blocks cover every row, so the result array ends holding
  `dense X W b`.
-/

/-! ## The body's value at an index -/

/-- The offsets `(0, 0)` and `(0)` of a whole-buffer access are the zero offsets. -/
theorem hz1 : (![0, 0] : Fin 2 → Nat) = fun _ => 0 := funext fun a => by fin_cases a <;> rfl
theorem hzv1 : (![0] : Fin 1 → Nat) = fun _ => 0 := funext fun a => by fin_cases a; rfl

/-- The body's value at `(r, j)`: row `r` of the block against row `j` of the weights, plus the bias entry `j`.
    The matrix product contracts the block's columns with the rows of the transposed weights, whose `(k, j)` is the
    weights' `(j, k)`; the bias vector viewed as one row and repeated down the rows reads its entry `j`. -/
theorem pay1_apply (x : Vec Ideal S5000x64 .f32) (w : Vec Ideal S128x64 .f32) (b : Vec Ideal S128 .f32)
    (r : Fin 5000) (j : Fin 128) :
    k1_pay1 (F := Ideal) x w b (ix2 r j) = (∑ k : Fin 64, x (ix2 r k) * w (ix2 j k)) + b (ix1 j) := by
  unfold k1_pay1
  dsimp only
  rw [truncf_apply, addf_apply]
  have hd : dot_S5000x64_S64x128_S5000x128_1_0_0_1_n_n = DotDims.plain 5000 64 128 := rfl
  simp only [matmul]
  rw [hd, Cert.Lib.matmul_plain_zero_apply 5000 64 128, broadcastTo_1b_ab_apply, shapeCast_a_1a_apply]
  congr 1
  refine Finset.sum_congr rfl fun k _ => ?_
  congr 1
  exact transpose_ix2_apply (truncf (F := Ideal) .bf16 w bitsLt_bf16_f32) transposes_S128x64_p1_0_S64x128 k j

/-! ## Where the blocks lie in their arrays -/

/-- The printed index maps over the 25 grid points: the row-block windows (first operand, result) are at block row
    `t`, block column `0`; the weights' and the bias's windows stay at their one block. -/
theorem idx_rows1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Block `t` of the first operand, at `(r, k)`, is the array at row `5000 t + r`, column `k`. -/
theorem iblk1_0_apply (c : Dev nD) (t : Fin cfg1.N) (r : Fin 5000) (k : Fin 64) (i : S125000x64.Idx)
    (hrow : (i 0).val = t.val * 5000 + r.val) (hcol : (i 1).val = k.val) :
    iblk1 V c 0 t (ix2 r k) = V c main_arg2 i := by
  obtain ⟨ea, eb, -⟩ := idx_rows1 t
  show V c main_arg2 (((cfg1.win 0).blk t).view.emb (ix2 r k)) = V c main_arg2 i
  congr 1
  funext a; apply Fin.ext
  match a with
  | ⟨0, _⟩ => show win1_0.index t (0 : Fin 2) * 5000 + 1 * r.val = (i 0).val; omega
  | ⟨1, _⟩ => show win1_0.index t (1 : Fin 2) * 64 + 1 * k.val = (i 1).val; omega

/-- The weight window's one block is the whole matrix, at every point. -/
theorem iblk1_1_apply (c : Dev nD) (t : Fin cfg1.N) (j : Fin 128) (k : Fin 64) :
    iblk1 V c 1 t (ix2 j k) = V c main_arg10 (ix2 j k) := by
  obtain ⟨-, -, ea, eb, -⟩ := idx_rows1 t
  show V c main_arg10 (((cfg1.win 1).blk t).view.emb (ix2 j k)) = V c main_arg10 (ix2 j k)
  congr 1
  funext a; apply Fin.ext
  match a with
  | ⟨0, _⟩ => show win1_1.index t (0 : Fin 2) * 128 + 1 * j.val = j.val; omega
  | ⟨1, _⟩ => show win1_1.index t (1 : Fin 2) * 64 + 1 * k.val = k.val; omega

/-- The bias window's one block is the whole vector, at every point. -/
theorem iblk1_2_apply (c : Dev nD) (t : Fin cfg1.N) (j : Fin 128) :
    iblk1 V c 2 t (ix1 j) = V c main_arg11 (ix1 j) := by
  obtain ⟨-, -, -, -, ea, -⟩ := idx_rows1 t
  show V c main_arg11 (((cfg1.win 2).blk t).view.emb (ix1 j)) = V c main_arg11 (ix1 j)
  congr 1
  funext a; apply Fin.ext
  match a with
  | ⟨0, _⟩ => show win1_2.index t (0 : Fin 1) * 128 + 1 * j.val = j.val; omega

/-- Point `t`'s result block puts its `(r, j)` at row `5000 t + r`, column `j` of the result array. -/
theorem oblk1_emb (t : Fin cfg1.N) (r : Fin 5000) (j : Fin 128) :
    ((((cfg1.win 3).blk t).view.emb (ix2 r j)) 0).val = t.val * 5000 + r.val
      ∧ ((((cfg1.win 3).blk t).view.emb (ix2 r j)) 1).val = j.val := by
  obtain ⟨-, -, -, -, -, ea, eb⟩ := idx_rows1 t
  constructor
  · show win1_3.index t (0 : Fin 2) * 5000 + 1 * r.val = _; omega
  · show win1_3.index t (1 : Fin 2) * 128 + 1 * j.val = _; omega

/-! ## What a point writes back -/

/-- WHAT POINT `t` WRITES BACK is block `t` of the dense layer of the three arrays as the region finds them: the
    body's value at `(r, j)` of the block, its operand blocks read at their places in the arrays, is the dense
    layer's entry at row `5000 t + r`, column `j`. -/
theorem flushed1_eq (c : Dev nD) (t : Fin cfg1.N) :
    (dat1 (F := Ideal) V c).flushed 3 t
      = ((cfg1.win 3).blk t).view.read (Elt Ideal) (dense (V c main_arg2) (V c main_arg10) (V c main_arg11)) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S128x64) hz1,
    View.ld_unit_zero (S := S128) hzv1]
  funext y
  obtain ⟨r, j, rfl⟩ : ∃ (r : Fin 5000) (j : Fin 128), y = ix2 r j := ⟨y 0, y 1, eq_ix2 y⟩
  show k1_pay1 (iblk1 V c 0 t) (iblk1 V c 1 t) (iblk1 V c 2 t) (ix2 r j)
    = dense (V c main_arg2) (V c main_arg10) (V c main_arg11) (((cfg1.win 3).blk t).view.emb (ix2 r j))
  rw [pay1_apply]
  obtain ⟨hrow, hcol⟩ := oblk1_emb t r j
  have hj : (((cfg1.win 3).blk t).view.emb (ix2 r j)) 1 = j := Fin.ext hcol
  unfold dense
  rw [hj, iblk1_2_apply]
  congr 1
  refine Finset.sum_congr rfl fun k _ => ?_
  rw [iblk1_1_apply, iblk1_0_apply V c t r k (ix2 ((((cfg1.win 3).blk t).view.emb (ix2 r j)) 0) k) hrow rfl]

/-! ## The blocks cover the array -/

/-- An index of the result array is in point `t`'s block iff each coordinate is in the block's range on its axis. -/
theorem mem_blk1 (t : Fin cfg1.N) (i : S125000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v4).slice (win1_3.rect t)).set ↔ _
  rw [View.set_slice_whole, Rect.mem_set_unit]
  exact Iff.rfl

/-- Every index of the result array lies in the block of the point its row belongs to: row `r` is in block
    `r / 5000`, and `125000 = 25 · 5000`. -/
theorem cover1 (i : S125000x128.Idx) :
    ∃ t : Fin cfg1.N, (cfg1.win 3).flush t = true ∧ i ∈ ((cfg1.win 3).blk t).view.set := by
  have hirow : (i 0).val < 125000 := (i 0).isLt
  have hicol : (i 1).val < 128 := (i 1).isLt
  have hN : cfg1.N = 25 := N_1
  let t : Fin cfg1.N := ⟨(i 0).val / 5000, by rw [hN]; omega⟩
  have ht : t.val = (i 0).val / 5000 := rfl
  obtain ⟨-, -, -, -, -, ea, eb⟩ := idx_rows1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-! ## The array after all points -/

/-- Region 1 leaves in its output array the dense layer of its three operands, as the region finds them. -/
theorem mlp1_final (c : Dev nD) :
    (dat1 (F := Ideal) V c).arrAt 3 cfg1.N = dense (V c main_arg2) (V c main_arg10) (V c main_arg11) :=
  (dat1 (F := Ideal) V c).arrAt_eq_of_cover 3 (dense (V c main_arg2) (V c main_arg10) (V c main_arg11))
    (fun t _ => flushed1_eq V c t) cover1

end Cert.KernelIdeal.Regions

end
-- ==== Proof.RegionMlp2.lean ====
import proofs.«431102_j70557722739198_1_alg».proof.Proof.Gen.KernelIdeal.Frame
import proofs.«431102_j70557722739198_1_alg».proof.Proof.Spec
import proofs.«431102_j70557722739198_1_alg».proof.Proof.LibPlainMatmul
import Idealize.ShloMosaic.Lib.ValueLayout
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen Cert.Emb
open Idealize.ShloMosaic.Pipeline (Dat Cfg Window)

variable (V : (c : Dev nD) → (b : Ref sig .tc) → Buf (Elt Ideal) ((c : Thread nD τ).loc b))

/-!
  A dense layer computed block of rows by block of rows.

  The grid has 25 points. Point `t` reads rows `5000 t … 5000 t + 4999` of the `125000 × 64` operand `X`, the whole
  `128 × 64` weight matrix `W` and the whole bias vector `b`, and writes rows `5000 t … 5000 t + 4999` of the
  `125000 × 128` result. On the extended reals the body's value at `(r, j)` of its block is
  `∑ k, X (r, k) * W (j, k) + b j`: the product of the block with the transposed weights, plus the bias row
  repeated down the rows (the changes of float format are the identity there). Read through the blocks' places in
  the arrays this is block `t` of `dense X W b`; the 25 blocks cover every row, so the result array ends holding
  `dense X W b`.
-/

/-! ## The body's value at an index -/

/-- The offsets `(0, 0)` and `(0)` of a whole-buffer access are the zero offsets. -/
theorem hz2 : (![0, 0] : Fin 2 → Nat) = fun _ => 0 := funext fun a => by fin_cases a <;> rfl
theorem hzv2 : (![0] : Fin 1 → Nat) = fun _ => 0 := funext fun a => by fin_cases a; rfl

/-- The body's value at `(r, j)`: row `r` of the block against row `j` of the weights, plus the bias entry `j`.
    The matrix product contracts the block's columns with the rows of the transposed weights, whose `(k, j)` is the
    weights' `(j, k)`; the bias vector viewed as one row and repeated down the rows reads its entry `j`. -/
theorem pay2_apply (x : Vec Ideal S5000x64 .f32) (w : Vec Ideal S128x64 .f32) (b : Vec Ideal S128 .f32)
    (r : Fin 5000) (j : Fin 128) :
    k2_pay1 (F := Ideal) x w b (ix2 r j) = (∑ k : Fin 64, x (ix2 r k) * w (ix2 j k)) + b (ix1 j) := by
  unfold k2_pay1
  dsimp only
  rw [truncf_apply, addf_apply]
  have hd : dot_S5000x64_S64x128_S5000x128_1_0_0_1_n_n = DotDims.plain 5000 64 128 := rfl
  simp only [matmul]
  rw [hd, Cert.Lib.matmul_plain_zero_apply 5000 64 128, broadcastTo_1b_ab_apply, shapeCast_a_1a_apply]
  congr 1
  refine Finset.sum_congr rfl fun k _ => ?_
  congr 1
  exact transpose_ix2_apply (truncf (F := Ideal) .bf16 w bitsLt_bf16_f32) transposes_S128x64_p1_0_S64x128 k j

/-! ## Where the blocks lie in their arrays -/

/-- The printed index maps over the 25 grid points: the row-block windows (first operand, result) are at block row
    `t`, block column `0`; the weights' and the bias's windows stay at their one block. -/
theorem idx_rows2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Block `t` of the first operand, at `(r, k)`, is the array at row `5000 t + r`, column `k`. -/
theorem iblk2_0_apply (c : Dev nD) (t : Fin cfg2.N) (r : Fin 5000) (k : Fin 64) (i : S125000x64.Idx)
    (hrow : (i 0).val = t.val * 5000 + r.val) (hcol : (i 1).val = k.val) :
    iblk2 V c 0 t (ix2 r k) = V c main_arg4 i := by
  obtain ⟨ea, eb, -⟩ := idx_rows2 t
  show V c main_arg4 (((cfg2.win 0).blk t).view.emb (ix2 r k)) = V c main_arg4 i
  congr 1
  funext a; apply Fin.ext
  match a with
  | ⟨0, _⟩ => show win2_0.index t (0 : Fin 2) * 5000 + 1 * r.val = (i 0).val; omega
  | ⟨1, _⟩ => show win2_0.index t (1 : Fin 2) * 64 + 1 * k.val = (i 1).val; omega

/-- The weight window's one block is the whole matrix, at every point. -/
theorem iblk2_1_apply (c : Dev nD) (t : Fin cfg2.N) (j : Fin 128) (k : Fin 64) :
    iblk2 V c 1 t (ix2 j k) = V c main_arg12 (ix2 j k) := by
  obtain ⟨-, -, ea, eb, -⟩ := idx_rows2 t
  show V c main_arg12 (((cfg2.win 1).blk t).view.emb (ix2 j k)) = V c main_arg12 (ix2 j k)
  congr 1
  funext a; apply Fin.ext
  match a with
  | ⟨0, _⟩ => show win2_1.index t (0 : Fin 2) * 128 + 1 * j.val = j.val; omega
  | ⟨1, _⟩ => show win2_1.index t (1 : Fin 2) * 64 + 1 * k.val = k.val; omega

/-- The bias window's one block is the whole vector, at every point. -/
theorem iblk2_2_apply (c : Dev nD) (t : Fin cfg2.N) (j : Fin 128) :
    iblk2 V c 2 t (ix1 j) = V c main_arg13 (ix1 j) := by
  obtain ⟨-, -, -, -, ea, -⟩ := idx_rows2 t
  show V c main_arg13 (((cfg2.win 2).blk t).view.emb (ix1 j)) = V c main_arg13 (ix1 j)
  congr 1
  funext a; apply Fin.ext
  match a with
  | ⟨0, _⟩ => show win2_2.index t (0 : Fin 1) * 128 + 1 * j.val = j.val; omega

/-- Point `t`'s result block puts its `(r, j)` at row `5000 t + r`, column `j` of the result array. -/
theorem oblk2_emb (t : Fin cfg2.N) (r : Fin 5000) (j : Fin 128) :
    ((((cfg2.win 3).blk t).view.emb (ix2 r j)) 0).val = t.val * 5000 + r.val
      ∧ ((((cfg2.win 3).blk t).view.emb (ix2 r j)) 1).val = j.val := by
  obtain ⟨-, -, -, -, -, ea, eb⟩ := idx_rows2 t
  constructor
  · show win2_3.index t (0 : Fin 2) * 5000 + 1 * r.val = _; omega
  · show win2_3.index t (1 : Fin 2) * 128 + 1 * j.val = _; omega

/-! ## What a point writes back -/

/-- WHAT POINT `t` WRITES BACK is block `t` of the dense layer of the three arrays as the region finds them: the
    body's value at `(r, j)` of the block, its operand blocks read at their places in the arrays, is the dense
    layer's entry at row `5000 t + r`, column `j`. -/
theorem flushed2_eq (c : Dev nD) (t : Fin cfg2.N) :
    (dat2 (F := Ideal) V c).flushed 3 t
      = ((cfg2.win 3).blk t).view.read (Elt Ideal) (dense (V c main_arg4) (V c main_arg12) (V c main_arg13)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S128x64) hz2,
    View.ld_unit_zero (S := S128) hzv2]
  funext y
  obtain ⟨r, j, rfl⟩ : ∃ (r : Fin 5000) (j : Fin 128), y = ix2 r j := ⟨y 0, y 1, eq_ix2 y⟩
  show k2_pay1 (iblk2 V c 0 t) (iblk2 V c 1 t) (iblk2 V c 2 t) (ix2 r j)
    = dense (V c main_arg4) (V c main_arg12) (V c main_arg13) (((cfg2.win 3).blk t).view.emb (ix2 r j))
  rw [pay2_apply]
  obtain ⟨hrow, hcol⟩ := oblk2_emb t r j
  have hj : (((cfg2.win 3).blk t).view.emb (ix2 r j)) 1 = j := Fin.ext hcol
  unfold dense
  rw [hj, iblk2_2_apply]
  congr 1
  refine Finset.sum_congr rfl fun k _ => ?_
  rw [iblk2_1_apply, iblk2_0_apply V c t r k (ix2 ((((cfg2.win 3).blk t).view.emb (ix2 r j)) 0) k) hrow rfl]

/-! ## The blocks cover the array -/

/-- An index of the result array is in point `t`'s block iff each coordinate is in the block's range on its axis. -/
theorem mem_blk2 (t : Fin cfg2.N) (i : S125000x128.Idx) :
    i ∈ ((cfg2.win 3).blk t).view.set
      ↔ ∀ a : Fin 2, win2_3.index t a * S5000x128.size a ≤ (i a).val
          ∧ (i a).val < win2_3.index t a * S5000x128.size a + S5000x128.size a := by
  show i ∈ ((View.whole main_v5).slice (win2_3.rect t)).set ↔ _
  rw [View.set_slice_whole, Rect.mem_set_unit]
  exact Iff.rfl

/-- Every index of the result array lies in the block of the point its row belongs to: row `r` is in block
    `r / 5000`, and `125000 = 25 · 5000`. -/
theorem cover2 (i : S125000x128.Idx) :
    ∃ t : Fin cfg2.N, (cfg2.win 3).flush t = true ∧ i ∈ ((cfg2.win 3).blk t).view.set := by
  have hirow : (i 0).val < 125000 := (i 0).isLt
  have hicol : (i 1).val < 128 := (i 1).isLt
  have hN : cfg2.N = 25 := N_2
  let t : Fin cfg2.N := ⟨(i 0).val / 5000, by rw [hN]; omega⟩
  have ht : t.val = (i 0).val / 5000 := rfl
  obtain ⟨-, -, -, -, -, ea, eb⟩ := idx_rows2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-! ## The array after all points -/

/-- Region 2 leaves in its output array the dense layer of its three operands, as the region finds them. -/
theorem mlp2_final (c : Dev nD) :
    (dat2 (F := Ideal) V c).arrAt 3 cfg2.N = dense (V c main_arg4) (V c main_arg12) (V c main_arg13) :=
  (dat2 (F := Ideal) V c).arrAt_eq_of_cover 3 (dense (V c main_arg4) (V c main_arg12) (V c main_arg13))
    (fun t _ => flushed2_eq V c t) cover2

end Cert.KernelIdeal.Regions

end
-- ==== Proof.RegionMlp3.lean ====
import proofs.«431102_j70557722739198_1_alg».proof.Proof.Gen.KernelIdeal.Frame
import proofs.«431102_j70557722739198_1_alg».proof.Proof.Spec
import proofs.«431102_j70557722739198_1_alg».proof.Proof.LibPlainMatmul
import Idealize.ShloMosaic.Lib.ValueLayout
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen Cert.Emb
open Idealize.ShloMosaic.Pipeline (Dat Cfg Window)

variable (V : (c : Dev nD) → (b : Ref sig .tc) → Buf (Elt Ideal) ((c : Thread nD τ).loc b))

/-!
  A dense layer computed block of rows by block of rows.

  The grid has 25 points. Point `t` reads rows `5000 t … 5000 t + 4999` of the `125000 × 64` operand `X`, the whole
  `128 × 64` weight matrix `W` and the whole bias vector `b`, and writes rows `5000 t … 5000 t + 4999` of the
  `125000 × 128` result. On the extended reals the body's value at `(r, j)` of its block is
  `∑ k, X (r, k) * W (j, k) + b j`: the product of the block with the transposed weights, plus the bias row
  repeated down the rows (the changes of float format are the identity there). Read through the blocks' places in
  the arrays this is block `t` of `dense X W b`; the 25 blocks cover every row, so the result array ends holding
  `dense X W b`.
-/

/-! ## The body's value at an index -/

/-- The offsets `(0, 0)` and `(0)` of a whole-buffer access are the zero offsets. -/
theorem hz3 : (![0, 0] : Fin 2 → Nat) = fun _ => 0 := funext fun a => by fin_cases a <;> rfl
theorem hzv3 : (![0] : Fin 1 → Nat) = fun _ => 0 := funext fun a => by fin_cases a; rfl

/-- The body's value at `(r, j)`: row `r` of the block against row `j` of the weights, plus the bias entry `j`.
    The matrix product contracts the block's columns with the rows of the transposed weights, whose `(k, j)` is the
    weights' `(j, k)`; the bias vector viewed as one row and repeated down the rows reads its entry `j`. -/
theorem pay3_apply (x : Vec Ideal S5000x64 .f32) (w : Vec Ideal S128x64 .f32) (b : Vec Ideal S128 .f32)
    (r : Fin 5000) (j : Fin 128) :
    k3_pay1 (F := Ideal) x w b (ix2 r j) = (∑ k : Fin 64, x (ix2 r k) * w (ix2 j k)) + b (ix1 j) := by
  unfold k3_pay1
  dsimp only
  rw [truncf_apply, addf_apply]
  have hd : dot_S5000x64_S64x128_S5000x128_1_0_0_1_n_n = DotDims.plain 5000 64 128 := rfl
  simp only [matmul]
  rw [hd, Cert.Lib.matmul_plain_zero_apply 5000 64 128, broadcastTo_1b_ab_apply, shapeCast_a_1a_apply]
  congr 1
  refine Finset.sum_congr rfl fun k _ => ?_
  congr 1
  exact transpose_ix2_apply (truncf (F := Ideal) .bf16 w bitsLt_bf16_f32) transposes_S128x64_p1_0_S64x128 k j

/-! ## Where the blocks lie in their arrays -/

/-- The printed index maps over the 25 grid points: the row-block windows (first operand, result) are at block row
    `t`, block column `0`; the weights' and the bias's windows stay at their one block. -/
theorem idx_rows3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Block `t` of the first operand, at `(r, k)`, is the array at row `5000 t + r`, column `k`. -/
theorem iblk3_0_apply (c : Dev nD) (t : Fin cfg3.N) (r : Fin 5000) (k : Fin 64) (i : S125000x64.Idx)
    (hrow : (i 0).val = t.val * 5000 + r.val) (hcol : (i 1).val = k.val) :
    iblk3 V c 0 t (ix2 r k) = V c main_arg6 i := by
  obtain ⟨ea, eb, -⟩ := idx_rows3 t
  show V c main_arg6 (((cfg3.win 0).blk t).view.emb (ix2 r k)) = V c main_arg6 i
  congr 1
  funext a; apply Fin.ext
  match a with
  | ⟨0, _⟩ => show win3_0.index t (0 : Fin 2) * 5000 + 1 * r.val = (i 0).val; omega
  | ⟨1, _⟩ => show win3_0.index t (1 : Fin 2) * 64 + 1 * k.val = (i 1).val; omega

/-- The weight window's one block is the whole matrix, at every point. -/
theorem iblk3_1_apply (c : Dev nD) (t : Fin cfg3.N) (j : Fin 128) (k : Fin 64) :
    iblk3 V c 1 t (ix2 j k) = V c main_arg14 (ix2 j k) := by
  obtain ⟨-, -, ea, eb, -⟩ := idx_rows3 t
  show V c main_arg14 (((cfg3.win 1).blk t).view.emb (ix2 j k)) = V c main_arg14 (ix2 j k)
  congr 1
  funext a; apply Fin.ext
  match a with
  | ⟨0, _⟩ => show win3_1.index t (0 : Fin 2) * 128 + 1 * j.val = j.val; omega
  | ⟨1, _⟩ => show win3_1.index t (1 : Fin 2) * 64 + 1 * k.val = k.val; omega

/-- The bias window's one block is the whole vector, at every point. -/
theorem iblk3_2_apply (c : Dev nD) (t : Fin cfg3.N) (j : Fin 128) :
    iblk3 V c 2 t (ix1 j) = V c main_arg15 (ix1 j) := by
  obtain ⟨-, -, -, -, ea, -⟩ := idx_rows3 t
  show V c main_arg15 (((cfg3.win 2).blk t).view.emb (ix1 j)) = V c main_arg15 (ix1 j)
  congr 1
  funext a; apply Fin.ext
  match a with
  | ⟨0, _⟩ => show win3_2.index t (0 : Fin 1) * 128 + 1 * j.val = j.val; omega

/-- Point `t`'s result block puts its `(r, j)` at row `5000 t + r`, column `j` of the result array. -/
theorem oblk3_emb (t : Fin cfg3.N) (r : Fin 5000) (j : Fin 128) :
    ((((cfg3.win 3).blk t).view.emb (ix2 r j)) 0).val = t.val * 5000 + r.val
      ∧ ((((cfg3.win 3).blk t).view.emb (ix2 r j)) 1).val = j.val := by
  obtain ⟨-, -, -, -, -, ea, eb⟩ := idx_rows3 t
  constructor
  · show win3_3.index t (0 : Fin 2) * 5000 + 1 * r.val = _; omega
  · show win3_3.index t (1 : Fin 2) * 128 + 1 * j.val = _; omega

/-! ## What a point writes back -/

/-- WHAT POINT `t` WRITES BACK is block `t` of the dense layer of the three arrays as the region finds them: the
    body's value at `(r, j)` of the block, its operand blocks read at their places in the arrays, is the dense
    layer's entry at row `5000 t + r`, column `j`. -/
theorem flushed3_eq (c : Dev nD) (t : Fin cfg3.N) :
    (dat3 (F := Ideal) V c).flushed 3 t
      = ((cfg3.win 3).blk t).view.read (Elt Ideal) (dense (V c main_arg6) (V c main_arg14) (V c main_arg15)) := by
  show (cfg3.win 3).cut (grid3.coords t) ((dat3 V c).after 3 t) = _
  rw [after3_3]
  unfold out3_3
  rw [View.canon_unit_zero hz3]
  simp only [View.ld_unit_zero (S := S5000x64) hz3, View.ld_unit_zero (S := S128x64) hz3,
    View.ld_unit_zero (S := S128) hzv3]
  funext y
  obtain ⟨r, j, rfl⟩ : ∃ (r : Fin 5000) (j : Fin 128), y = ix2 r j := ⟨y 0, y 1, eq_ix2 y⟩
  show k3_pay1 (iblk3 V c 0 t) (iblk3 V c 1 t) (iblk3 V c 2 t) (ix2 r j)
    = dense (V c main_arg6) (V c main_arg14) (V c main_arg15) (((cfg3.win 3).blk t).view.emb (ix2 r j))
  rw [pay3_apply]
  obtain ⟨hrow, hcol⟩ := oblk3_emb t r j
  have hj : (((cfg3.win 3).blk t).view.emb (ix2 r j)) 1 = j := Fin.ext hcol
  unfold dense
  rw [hj, iblk3_2_apply]
  congr 1
  refine Finset.sum_congr rfl fun k _ => ?_
  rw [iblk3_1_apply, iblk3_0_apply V c t r k (ix2 ((((cfg3.win 3).blk t).view.emb (ix2 r j)) 0) k) hrow rfl]

/-! ## The blocks cover the array -/

/-- An index of the result array is in point `t`'s block iff each coordinate is in the block's range on its axis. -/
theorem mem_blk3 (t : Fin cfg3.N) (i : S125000x128.Idx) :
    i ∈ ((cfg3.win 3).blk t).view.set
      ↔ ∀ a : Fin 2, win3_3.index t a * S5000x128.size a ≤ (i a).val
          ∧ (i a).val < win3_3.index t a * S5000x128.size a + S5000x128.size a := by
  show i ∈ ((View.whole main_v6).slice (win3_3.rect t)).set ↔ _
  rw [View.set_slice_whole, Rect.mem_set_unit]
  exact Iff.rfl

/-- Every index of the result array lies in the block of the point its row belongs to: row `r` is in block
    `r / 5000`, and `125000 = 25 · 5000`. -/
theorem cover3 (i : S125000x128.Idx) :
    ∃ t : Fin cfg3.N, (cfg3.win 3).flush t = true ∧ i ∈ ((cfg3.win 3).blk t).view.set := by
  have hirow : (i 0).val < 125000 := (i 0).isLt
  have hicol : (i 1).val < 128 := (i 1).isLt
  have hN : cfg3.N = 25 := N_3
  let t : Fin cfg3.N := ⟨(i 0).val / 5000, by rw [hN]; omega⟩
  have ht : t.val = (i 0).val / 5000 := rfl
  obtain ⟨-, -, -, -, -, ea, eb⟩ := idx_rows3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-! ## The array after all points -/

/-- Region 3 leaves in its output array the dense layer of its three operands, as the region finds them. -/
theorem mlp3_final (c : Dev nD) :
    (dat3 (F := Ideal) V c).arrAt 3 cfg3.N = dense (V c main_arg6) (V c main_arg14) (V c main_arg15) :=
  (dat3 (F := Ideal) V c).arrAt_eq_of_cover 3 (dense (V c main_arg6) (V c main_arg14) (V c main_arg15))
    (fun t _ => flushed3_eq V c t) cover3

end Cert.KernelIdeal.Regions

end
-- ==== Proof.RegionMlp4.lean ====
import proofs.«431102_j70557722739198_1_alg».proof.Proof.Gen.KernelIdeal.Frame
import proofs.«431102_j70557722739198_1_alg».proof.Proof.Spec
import proofs.«431102_j70557722739198_1_alg».proof.Proof.LibPlainMatmul
import Idealize.ShloMosaic.Lib.ValueLayout
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen Cert.Emb
open Idealize.ShloMosaic.Pipeline (Dat Cfg Window)

variable (V : (c : Dev nD) → (b : Ref sig .tc) → Buf (Elt Ideal) ((c : Thread nD τ).loc b))

/-!
  A dense layer computed block of rows by block of rows.

  The grid has 25 points. Point `t` reads rows `5000 t … 5000 t + 4999` of the `125000 × 64` operand `X`, the whole
  `128 × 64` weight matrix `W` and the whole bias vector `b`, and writes rows `5000 t … 5000 t + 4999` of the
  `125000 × 128` result. On the extended reals the body's value at `(r, j)` of its block is
  `∑ k, X (r, k) * W (j, k) + b j`: the product of the block with the transposed weights, plus the bias row
  repeated down the rows (the changes of float format are the identity there). Read through the blocks' places in
  the arrays this is block `t` of `dense X W b`; the 25 blocks cover every row, so the result array ends holding
  `dense X W b`.
-/

/-! ## The body's value at an index -/

/-- The offsets `(0, 0)` and `(0)` of a whole-buffer access are the zero offsets. -/
theorem hz4 : (![0, 0] : Fin 2 → Nat) = fun _ => 0 := funext fun a => by fin_cases a <;> rfl
theorem hzv4 : (![0] : Fin 1 → Nat) = fun _ => 0 := funext fun a => by fin_cases a; rfl

/-- The body's value at `(r, j)`: row `r` of the block against row `j` of the weights, plus the bias entry `j`.
    The matrix product contracts the block's columns with the rows of the transposed weights, whose `(k, j)` is the
    weights' `(j, k)`; the bias vector viewed as one row and repeated down the rows reads its entry `j`. -/
theorem pay4_apply (x : Vec Ideal S5000x64 .f32) (w : Vec Ideal S128x64 .f32) (b : Vec Ideal S128 .f32)
    (r : Fin 5000) (j : Fin 128) :
    k4_pay1 (F := Ideal) x w b (ix2 r j) = (∑ k : Fin 64, x (ix2 r k) * w (ix2 j k)) + b (ix1 j) := by
  unfold k4_pay1
  dsimp only
  rw [truncf_apply, addf_apply]
  have hd : dot_S5000x64_S64x128_S5000x128_1_0_0_1_n_n = DotDims.plain 5000 64 128 := rfl
  simp only [matmul]
  rw [hd, Cert.Lib.matmul_plain_zero_apply 5000 64 128, broadcastTo_1b_ab_apply, shapeCast_a_1a_apply]
  congr 1
  refine Finset.sum_congr rfl fun k _ => ?_
  congr 1
  exact transpose_ix2_apply (truncf (F := Ideal) .bf16 w bitsLt_bf16_f32) transposes_S128x64_p1_0_S64x128 k j

/-! ## Where the blocks lie in their arrays -/

/-- The printed index maps over the 25 grid points: the row-block windows (first operand, result) are at block row
    `t`, block column `0`; the weights' and the bias's windows stay at their one block. -/
theorem idx_rows4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Block `t` of the first operand, at `(r, k)`, is the array at row `5000 t + r`, column `k`. -/
theorem iblk4_0_apply (c : Dev nD) (t : Fin cfg4.N) (r : Fin 5000) (k : Fin 64) (i : S125000x64.Idx)
    (hrow : (i 0).val = t.val * 5000 + r.val) (hcol : (i 1).val = k.val) :
    iblk4 V c 0 t (ix2 r k) = V c main_arg8 i := by
  obtain ⟨ea, eb, -⟩ := idx_rows4 t
  show V c main_arg8 (((cfg4.win 0).blk t).view.emb (ix2 r k)) = V c main_arg8 i
  congr 1
  funext a; apply Fin.ext
  match a with
  | ⟨0, _⟩ => show win4_0.index t (0 : Fin 2) * 5000 + 1 * r.val = (i 0).val; omega
  | ⟨1, _⟩ => show win4_0.index t (1 : Fin 2) * 64 + 1 * k.val = (i 1).val; omega

/-- The weight window's one block is the whole matrix, at every point. -/
theorem iblk4_1_apply (c : Dev nD) (t : Fin cfg4.N) (j : Fin 128) (k : Fin 64) :
    iblk4 V c 1 t (ix2 j k) = V c main_arg16 (ix2 j k) := by
  obtain ⟨-, -, ea, eb, -⟩ := idx_rows4 t
  show V c main_arg16 (((cfg4.win 1).blk t).view.emb (ix2 j k)) = V c main_arg16 (ix2 j k)
  congr 1
  funext a; apply Fin.ext
  match a with
  | ⟨0, _⟩ => show win4_1.index t (0 : Fin 2) * 128 + 1 * j.val = j.val; omega
  | ⟨1, _⟩ => show win4_1.index t (1 : Fin 2) * 64 + 1 * k.val = k.val; omega

/-- The bias window's one block is the whole vector, at every point. -/
theorem iblk4_2_apply (c : Dev nD) (t : Fin cfg4.N) (j : Fin 128) :
    iblk4 V c 2 t (ix1 j) = V c main_arg17 (ix1 j) := by
  obtain ⟨-, -, -, -, ea, -⟩ := idx_rows4 t
  show V c main_arg17 (((cfg4.win 2).blk t).view.emb (ix1 j)) = V c main_arg17 (ix1 j)
  congr 1
  funext a; apply Fin.ext
  match a with
  | ⟨0, _⟩ => show win4_2.index t (0 : Fin 1) * 128 + 1 * j.val = j.val; omega

/-- Point `t`'s result block puts its `(r, j)` at row `5000 t + r`, column `j` of the result array. -/
theorem oblk4_emb (t : Fin cfg4.N) (r : Fin 5000) (j : Fin 128) :
    ((((cfg4.win 3).blk t).view.emb (ix2 r j)) 0).val = t.val * 5000 + r.val
      ∧ ((((cfg4.win 3).blk t).view.emb (ix2 r j)) 1).val = j.val := by
  obtain ⟨-, -, -, -, -, ea, eb⟩ := idx_rows4 t
  constructor
  · show win4_3.index t (0 : Fin 2) * 5000 + 1 * r.val = _; omega
  · show win4_3.index t (1 : Fin 2) * 128 + 1 * j.val = _; omega

/-! ## What a point writes back -/

/-- WHAT POINT `t` WRITES BACK is block `t` of the dense layer of the three arrays as the region finds them: the
    body's value at `(r, j)` of the block, its operand blocks read at their places in the arrays, is the dense
    layer's entry at row `5000 t + r`, column `j`. -/
theorem flushed4_eq (c : Dev nD) (t : Fin cfg4.N) :
    (dat4 (F := Ideal) V c).flushed 3 t
      = ((cfg4.win 3).blk t).view.read (Elt Ideal) (dense (V c main_arg8) (V c main_arg16) (V c main_arg17)) := by
  show (cfg4.win 3).cut (grid4.coords t) ((dat4 V c).after 3 t) = _
  rw [after4_3]
  unfold out4_3
  rw [View.canon_unit_zero hz4]
  simp only [View.ld_unit_zero (S := S5000x64) hz4, View.ld_unit_zero (S := S128x64) hz4,
    View.ld_unit_zero (S := S128) hzv4]
  funext y
  obtain ⟨r, j, rfl⟩ : ∃ (r : Fin 5000) (j : Fin 128), y = ix2 r j := ⟨y 0, y 1, eq_ix2 y⟩
  show k4_pay1 (iblk4 V c 0 t) (iblk4 V c 1 t) (iblk4 V c 2 t) (ix2 r j)
    = dense (V c main_arg8) (V c main_arg16) (V c main_arg17) (((cfg4.win 3).blk t).view.emb (ix2 r j))
  rw [pay4_apply]
  obtain ⟨hrow, hcol⟩ := oblk4_emb t r j
  have hj : (((cfg4.win 3).blk t).view.emb (ix2 r j)) 1 = j := Fin.ext hcol
  unfold dense
  rw [hj, iblk4_2_apply]
  congr 1
  refine Finset.sum_congr rfl fun k _ => ?_
  rw [iblk4_1_apply, iblk4_0_apply V c t r k (ix2 ((((cfg4.win 3).blk t).view.emb (ix2 r j)) 0) k) hrow rfl]

/-! ## The blocks cover the array -/

/-- An index of the result array is in point `t`'s block iff each coordinate is in the block's range on its axis. -/
theorem mem_blk4 (t : Fin cfg4.N) (i : S125000x128.Idx) :
    i ∈ ((cfg4.win 3).blk t).view.set
      ↔ ∀ a : Fin 2, win4_3.index t a * S5000x128.size a ≤ (i a).val
          ∧ (i a).val < win4_3.index t a * S5000x128.size a + S5000x128.size a := by
  show i ∈ ((View.whole main_v7).slice (win4_3.rect t)).set ↔ _
  rw [View.set_slice_whole, Rect.mem_set_unit]
  exact Iff.rfl

/-- Every index of the result array lies in the block of the point its row belongs to: row `r` is in block
    `r / 5000`, and `125000 = 25 · 5000`. -/
theorem cover4 (i : S125000x128.Idx) :
    ∃ t : Fin cfg4.N, (cfg4.win 3).flush t = true ∧ i ∈ ((cfg4.win 3).blk t).view.set := by
  have hirow : (i 0).val < 125000 := (i 0).isLt
  have hicol : (i 1).val < 128 := (i 1).isLt
  have hN : cfg4.N = 25 := N_4
  let t : Fin cfg4.N := ⟨(i 0).val / 5000, by rw [hN]; omega⟩
  have ht : t.val = (i 0).val / 5000 := rfl
  obtain ⟨-, -, -, -, -, ea, eb⟩ := idx_rows4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 128 ≤ (i 1).val ∧ (i 1).val < win4_3.index t (1 : Fin 2) * 128 + 128
    omega

/-! ## The array after all points -/

/-- Region 4 leaves in its output array the dense layer of its three operands, as the region finds them. -/
theorem mlp4_final (c : Dev nD) :
    (dat4 (F := Ideal) V c).arrAt 3 cfg4.N = dense (V c main_arg8) (V c main_arg16) (V c main_arg17) :=
  (dat4 (F := Ideal) V c).arrAt_eq_of_cover 3 (dense (V c main_arg8) (V c main_arg16) (V c main_arg17))
    (fun t _ => flushed4_eq V c t) cover4

end Cert.KernelIdeal.Regions

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«431102_j70557722739198_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.ConcatRows.lean ====
/-
  Two arrays of 128 columns joined along the column axis, as one whole-array function.

  A two-piece concatenation along axis 1 reads, at `(r, k)`, the first piece at `(r, k)` when `k < 128` and the
  second piece at `(r, k - 128)` otherwise: that is `hcat128`, index by index.
-/
import Idealize.ShloMosaic.Lib.Pipeline.Value
import Idealize.ShloMosaic.Lib.ValueIdx
import proofs.«431102_j70557722739198_1_alg».proof.Proof.Spec

noncomputable section

namespace Cert.Emb

open Idealize.ShloMosaic Idealize.ShloMosaic.ValueIdx

/-- Two arrays of 128 columns joined along the column axis: the left one's columns, then the right one's. -/
theorem concat_rows_eq {M : ℕ}
    (h : Shape.Concatenates [(⟨2, ![M, 128]⟩ : Shape), ⟨2, ![M, 128]⟩] ⟨2, ![M, 256]⟩ 1)
    (A B : (⟨2, ![M, 128]⟩ : Shape).Idx → EReal) :
    concatenate ⟨2, ![M, 256]⟩ 1 [⟨⟨2, ![M, 128]⟩, A⟩, ⟨⟨2, ![M, 128]⟩, B⟩] h = hcat128 A B := by
  funext j
  unfold hcat128
  split
  · next hlt =>
    exact concatenate_pair_apply_left 1 A B h j rfl _
      (fun b => match b with | ⟨0, _⟩ => rfl | ⟨1, _⟩ => rfl)
  · next hge =>
    exact concatenate_pair_apply_right 1 A B h j rfl rfl _
      (fun b hb => match b with | ⟨0, _⟩ => rfl | ⟨1, _⟩ => absurd rfl hb)
      (by show (j 1).val - 128 + 128 = (j 1).val; omega)

end Cert.Emb

end
-- ==== Proof.RegionMerge.lean ====
import proofs.«431102_j70557722739198_1_alg».proof.Proof.Gen.KernelIdeal.Frame
import proofs.«431102_j70557722739198_1_alg».proof.Proof.Spec
import proofs.«431102_j70557722739198_1_alg».proof.Proof.LibPlainMatmul
import proofs.«431102_j70557722739198_1_alg».proof.Proof.LibRowOps
import proofs.«431102_j70557722739198_1_alg».proof.Proof.ConcatRows

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen Cert.Emb
open Idealize.ShloMosaic.Pipeline (Dat Cfg Window)

variable (V : (c : Dev nD) → (b : Ref sig .tc) → Buf (Elt Ideal) ((c : Thread nD τ).loc b))

/-! Region 5 is one dense layer over two row-block inputs joined along the columns. Its body, at a block of 5000
rows, multiplies the joined `[5000, 256]` block into the transposed `[256, 256]` weights and adds the bias row. Below:
the body's payload at an index; each window's block at grid point `t` as the rows `5000 t …` of its array (the weights
and the bias whole); what point `t` writes back as block `t` of the dense layer of the joined arrays; the blocks of the
100 points cover the output array; hence the array after the last point. -/

/-- The body's payload at row `r`, column `j` of its block: the two row blocks side by side against row `j` of the
    weights, plus the bias entry `j`. The product into the zero accumulator is the sum along the contracted axis;
    the joined operand is the left block for the first 128 columns and the right block after; the transposed weights
    at `(k, j)` are the weights at `(j, k)`; the bias row broadcast down the rows reads the bias entry. -/
theorem merge_payload_apply (a b : Vec Ideal S5000x128 .bf16) (w : Vec Ideal S256x256 .bf16) (mb : Vec Ideal S256 .f32)
    (r : Fin 5000) (j : Fin 256) :
    k5_pay1 (F := Ideal) a b w mb (ix2 r j)
      = (∑ k : Fin 256, hcat128 a b (ix2 r k) * w (ix2 j k)) + mb (ix1 j) := by
  unfold k5_pay1
  rw [addf_apply]
  refine congrArg₂ (· + ·) ?_ ?_
  · refine (Cert.Lib.matmul_plain_zero_apply 5000 256 256 none _ _ (ix2 r j)).trans ?_
    refine Finset.sum_congr rfl fun k _ => ?_
    rw [shapeCast_self, shapeCast_self, shapeCast_self]
    refine congrArg₂ (· * ·) ?_ ?_
    · exact congrFun (concat_rows_eq concatenates_S5000x128_S5000x128_S5000x256_d1 a b) (ix2 r k)
    · exact transpose_apply _ w transposes_S256x256_p1_0_S256x256 (ix2 k j) (ix2 j k)
        fun c => match c with | ⟨0, _⟩ => rfl | ⟨1, _⟩ => rfl
  · rw [Cert.Lib.broadcastTo_row_apply]
    exact shapeCast_apply mb shapeCasts_S256_S1x256 _ _ (by
      rw [Shape.rowMajor_val_two, Shape.rowMajor_val_one]
      show j.val = 0 * 256 + j.val
      omega)

/-- The payload as a whole-block function: the dense layer of the joined blocks. -/
theorem merge_payload_eq (a b : Vec Ideal S5000x128 .bf16) (w : Vec Ideal S256x256 .bf16) (mb : Vec Ideal S256 .f32) :
    k5_pay1 (F := Ideal) a b w mb = dense (hcat128 a b) w mb := by
  funext i
  obtain ⟨r, j, rfl⟩ : ∃ (r : Fin 5000) (j : Fin 256), i = ix2 r j := ⟨i 0, i 1, eq_ix2 i⟩
  exact merge_payload_apply a b w mb r j

/-- The column-pair `(0, 0)` and the single offset `0` as constant functions. -/
theorem zero_pair : (![0, 0] : Fin 2 → Nat) = fun _ => 0 := funext fun a => by fin_cases a <;> rfl
theorem zero_single : (![0] : Fin 1 → Nat) = fun _ => 0 := funext fun a => by fin_cases a <;> rfl

/-- The printed index maps over the grid: at point `t` both row-block inputs and the output sit at block row `t`,
    block column `0`; the weights and the bias are the whole arrays at every point. -/
theorem merge_index_facts : ∀ t : Fin cfg5.N,
    win5_4.index t (0 : Fin 2) = t.val ∧ win5_4.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0 :=
  (by decide +kernel : ∀ t : Fin grid5.N, _)

/-- The left input's block at point `t` is rows `5000 t, …, 5000 t + 4999` of its array. -/
theorem left_block_apply (c : Dev nD) (t : Fin cfg5.N) (x : S5000x128.Idx) (K : S500000x128.Idx)
    (h0 : (K 0).val = t.val * 5000 + (x 0).val) (h1 : (K 1).val = (x 1).val) :
    (iblk5 V c 0 t : Vec Ideal S5000x128 .bf16) x = (V c main_v3 : S500000x128.Idx → Elt Ideal .bf16) K := by
  obtain ⟨-, -, e0, e1, -⟩ := merge_index_facts t
  unfold iblk5
  rw [View.read_apply]
  show V c main_v3 _ = V c main_v3 _
  congr 1
  funext a
  apply Fin.ext
  match a with
  | ⟨0, _⟩ => show win5_0.index t (0 : Fin 2) * 5000 + 1 * (x 0).val = (K 0).val; rw [e0, h0]; omega
  | ⟨1, _⟩ => show win5_0.index t (1 : Fin 2) * 128 + 1 * (x 1).val = (K 1).val; rw [e1, h1]; omega

/-- The right input's block at point `t` is the same rows of its array. -/
theorem right_block_apply (c : Dev nD) (t : Fin cfg5.N) (x : S5000x128.Idx) (K : S500000x128.Idx)
    (h0 : (K 0).val = t.val * 5000 + (x 0).val) (h1 : (K 1).val = (x 1).val) :
    (iblk5 V c 1 t : Vec Ideal S5000x128 .bf16) x = (V c main_v36 : S500000x128.Idx → Elt Ideal .bf16) K := by
  obtain ⟨-, -, -, -, e0, e1, -⟩ := merge_index_facts t
  unfold iblk5
  rw [View.read_apply]
  show V c main_v36 _ = V c main_v36 _
  congr 1
  funext a
  apply Fin.ext
  match a with
  | ⟨0, _⟩ => show win5_1.index t (0 : Fin 2) * 5000 + 1 * (x 0).val = (K 0).val; rw [e0, h0]; omega
  | ⟨1, _⟩ => show win5_1.index t (1 : Fin 2) * 128 + 1 * (x 1).val = (K 1).val; rw [e1, h1]; omega

/-- The weights' block at every point is the whole weight array. -/
theorem weights_block_apply (c : Dev nD) (t : Fin cfg5.N) (x : S256x256.Idx) :
    (iblk5 V c 2 t : Vec Ideal S256x256 .bf16) x = (V c main_v37 : S256x256.Idx → Elt Ideal .bf16) x := by
  obtain ⟨-, -, -, -, -, -, e0, e1, -⟩ := merge_index_facts t
  unfold iblk5
  rw [View.read_apply]
  show V c main_v37 _ = V c main_v37 _
  congr 1
  funext a
  apply Fin.ext
  match a with
  | ⟨0, _⟩ => show win5_2.index t (0 : Fin 2) * 256 + 1 * (x 0).val = (x 0).val; rw [e0]; omega
  | ⟨1, _⟩ => show win5_2.index t (1 : Fin 2) * 256 + 1 * (x 1).val = (x 1).val; rw [e1]; omega

/-- The bias' block at every point is the whole bias vector. -/
theorem bias_block_apply (c : Dev nD) (t : Fin cfg5.N) (x : S256.Idx) :
    (iblk5 V c 3 t : Vec Ideal S256 .f32) x = (V c main_arg19 : S256.Idx → Elt Ideal .f32) x := by
  obtain ⟨-, -, -, -, -, -, -, -, e0⟩ := merge_index_facts t
  unfold iblk5
  rw [View.read_apply]
  show V c main_arg19 _ = V c main_arg19 _
  congr 1
  funext a
  apply Fin.ext
  match a with
  | ⟨0, _⟩ => show win5_3.index t (0 : Fin 1) * 256 + 1 * (x 0).val = (x 0).val; rw [e0]; omega

/-- The two blocks of one point side by side are the block of the two arrays side by side: row `r` of the joined
    blocks is row `5000 t + r` of the joined arrays. -/
theorem joined_block_apply (c : Dev nD) (t : Fin cfg5.N) (r : Fin 5000) (R : Fin 500000)
    (hR : R.val = t.val * 5000 + r.val) (k : Fin 256) :
    hcat128 (iblk5 V c 0 t : Vec Ideal S5000x128 .bf16) (iblk5 V c 1 t : Vec Ideal S5000x128 .bf16) (ix2 r k)
      = hcat128 (V c main_v3) (V c main_v36) (ix2 R k) := by
  unfold hcat128
  by_cases hk : k.val < 128
  · rw [dif_pos (show ((ix2 r k : (⟨2, ![5000, 256]⟩ : Shape).Idx) 1).val < 128 from hk),
      dif_pos (show ((ix2 R k : (⟨2, ![500000, 256]⟩ : Shape).Idx) 1).val < 128 from hk)]
    exact left_block_apply V c t _ _ hR rfl
  · rw [dif_neg (show ¬ ((ix2 r k : (⟨2, ![5000, 256]⟩ : Shape).Idx) 1).val < 128 from hk),
      dif_neg (show ¬ ((ix2 R k : (⟨2, ![500000, 256]⟩ : Shape).Idx) 1).val < 128 from hk)]
    exact right_block_apply V c t _ _ hR rfl

/-- What point `t` writes back is block `t` of the dense layer of the joined arrays. -/
theorem merge_flushed_eq (c : Dev nD) (t : Fin cfg5.N) :
    (dat5 (F := Ideal) V c).flushed 4 t = ((cfg5.win 4).blk t).view.read (Elt Ideal)
      (dense (hcat128 (V c main_v3) (V c main_v36)) (V c main_v37) (V c main_arg19)) := by
  show (cfg5.win 4).cut (grid5.coords t) ((dat5 V c).after 4 t) = _
  rw [after5_4]
  unfold out5_4
  rw [View.canon_unit_zero zero_pair]
  simp only [View.ld_unit_zero (S := S5000x128) zero_pair, View.ld_unit_zero (S := S256x256) zero_pair,
    View.ld_unit_zero (S := S256) zero_single]
  rw [merge_payload_eq]
  obtain ⟨e0, e1, -⟩ := merge_index_facts t
  funext y
  show dense (hcat128 (iblk5 V c 0 t) (iblk5 V c 1 t)) (iblk5 V c 2 t) (iblk5 V c 3 t) y
    = dense (hcat128 (V c main_v3) (V c main_v36)) (V c main_v37) (V c main_arg19) (((cfg5.win 4).blk t).view.emb y)
  have hR0 : ((((cfg5.win 4).blk t).view.emb y) 0).val = t.val * 5000 + (y 0).val := by
    show win5_4.index t (0 : Fin 2) * 5000 + 1 * (y 0).val = _; rw [e0]; omega
  have hR1 : (((cfg5.win 4).blk t).view.emb y) 1 = y 1 := by
    apply Fin.ext
    show win5_4.index t (1 : Fin 2) * 256 + 1 * (y 1).val = _; rw [e1]; omega
  unfold dense
  rw [hR1]
  refine congrArg₂ (· + ·) (Finset.sum_congr rfl fun k _ => congrArg₂ (· * ·) ?_ ?_) ?_
  · exact joined_block_apply V c t (y 0) _ hR0 k
  · exact weights_block_apply V c t _
  · exact bias_block_apply V c t _

/-- An index of the output array is in point `t`'s block iff each coordinate is in the block's range on its axis. -/
theorem merge_mem_blk (t : Fin cfg5.N) (i : S500000x256.Idx) :
    i ∈ ((cfg5.win 4).blk t).view.set ↔ ∀ a : Fin 2, win5_4.index t a * S5000x256.size a ≤ (i a).val
      ∧ (i a).val < win5_4.index t a * S5000x256.size a + S5000x256.size a := by
  show i ∈ ((View.whole main_v38).slice (win5_4.rect t)).set ↔ _
  rw [View.set_slice_whole, Rect.mem_set_unit]
  exact Iff.rfl

/-- Every index of the output array is written back by some point: row `r` lies in the block of point `r / 5000`. -/
theorem merge_cover (i : S500000x256.Idx) :
    ∃ t : Fin cfg5.N, (cfg5.win 4).flush t = true ∧ i ∈ ((cfg5.win 4).blk t).view.set := by
  have hi0 : (i 0).val < 500000 := (i 0).isLt
  have hi1 : (i 1).val < 256 := (i 1).isLt
  have hN : grid5.N = 100 := N_5
  let t : Fin cfg5.N := ⟨(i 0).val / 5000, by show (i 0).val / 5000 < grid5.N; omega⟩
  obtain ⟨e0, e1, -⟩ := merge_index_facts t
  have ht : t.val = (i 0).val / 5000 := rfl
  refine ⟨t, flush5_4 t, ?_⟩
  rw [merge_mem_blk]
  intro a
  match a with
  | ⟨0, _⟩ =>
    show win5_4.index t (0 : Fin 2) * 5000 ≤ (i 0).val ∧ (i 0).val < win5_4.index t (0 : Fin 2) * 5000 + 5000
    rw [e0, ht]; omega
  | ⟨1, _⟩ =>
    show win5_4.index t (1 : Fin 2) * 256 ≤ (i 1).val ∧ (i 1).val < win5_4.index t (1 : Fin 2) * 256 + 256
    rw [e1]; omega

/-- Region 5 leaves in its output array the dense layer of the two row blocks side by side, as the region finds
    them. -/
theorem merge_final (c : Dev nD) :
    (dat5 (F := Ideal) V c).arrAt 4 cfg5.N
      = dense (hcat128 (V c main_v3) (V c main_v36)) (V c main_v37) (V c main_arg19) :=
  (dat5 (F := Ideal) V c).arrAt_eq_of_cover 4 _ (fun t _ => merge_flushed_eq V c t) merge_cover

end Cert.KernelIdeal.Regions

end
-- ==== Proof.Thread.lean ====
/-
  The kernel program's result as ONE function of its twenty argument arrays: the result array at the last segment
  boundary, read back region by region and stretch by stretch to the launch memory.
-/
import proofs.«431102_j70557722739198_1_alg».proof.Proof.Boundaries
import proofs.«431102_j70557722739198_1_alg».proof.Proof.RegionEmbed
import proofs.«431102_j70557722739198_1_alg».proof.Proof.RegionMlp1
import proofs.«431102_j70557722739198_1_alg».proof.Proof.RegionMlp2
import proofs.«431102_j70557722739198_1_alg».proof.Proof.RegionMlp3
import proofs.«431102_j70557722739198_1_alg».proof.Proof.RegionMlp4
import proofs.«431102_j70557722739198_1_alg».proof.Proof.RegionMerge

set_option maxRecDepth 16384

noncomputable section

namespace Cert.KernelIdeal.Thread

open Idealize.ShloMosaic Idealize.ShloMosaic.TcCoe Idealize.SL.Sem
open Cert.KernelIdeal Cert.KernelIdeal.Gen Cert.KernelIdeal.Regions Cert.Emb

/-- The kernel program as a function of its arguments: the one-hot rows of the padded indices against the table, cut
    to 500000 rows; beside them the four dense layers' rows scattered in order into the zero array; the two side by
    side through the merge layer. -/
def kernelFn (ff : IVec S500000 32)
    (i0 : IVec S125000 32) (x0 : FVec Ideal S125000x64 .f32) (i1 : IVec S125000 32) (x1 : FVec Ideal S125000x64 .f32)
    (i2 : IVec S125000 32) (x2 : FVec Ideal S125000x64 .f32) (i3 : IVec S125000 32) (x3 : FVec Ideal S125000x64 .f32)
    (T : FVec Ideal S1000x128 .f32)
    (w0 : FVec Ideal S128x64 .f32) (b0 : FVec Ideal S128 .f32) (w1 : FVec Ideal S128x64 .f32) (b1 : FVec Ideal S128 .f32)
    (w2 : FVec Ideal S128x64 .f32) (b2 : FVec Ideal S128 .f32) (w3 : FVec Ideal S128x64 .f32) (b3 : FVec Ideal S128 .f32)
    (mw : FVec Ideal S256x256 .f32) (mb : FVec Ideal S256 .f32) : S500000x256.Idx → EReal :=
  dense
    (hcat128
      (extractStridedSlice S500000x128 ![0, 0]
        (onehotRows (pad S503808 ![0] ![3808] ![0] ff (constantI S_ 32 0#32) pads_S500000_S503808_038080 h_S_)
          (truncf (F := Ideal) .bf16 T bitsLt_bf16_f32))
        slices_S503808x128_S500000x128_0_0)
      (scat4 (broadcastInDim S500000x128 ![] bcast_S_S500000x128 (constant (F := Ideal) S_ .bf16 0x0000#16))
        i0 i1 i2 i3 (dense x0 w0 b0) (dense x1 w1 b1) (dense x2 w2 b2) (dense x3 w3 b3)))
    (truncf (F := Ideal) .bf16 mw bitsLt_bf16_f32) mb

variable (m : (ℓ : Loc nD τ sig) → Buf (Elt Ideal) ℓ) (ρ : Dev nD → PrngReg)

/-! ## Each region's output, as a function of the arguments -/

theorem W5_v4_eq (c : Dev nD) :
    W5 m ρ c (Proc.devRef .tc main_v4) = dense (m ((c : Thread nD τ).loc main_arg2)) (m ((c : Thread nD τ).loc main_arg10)) (m ((c : Thread nD τ).loc main_arg11)) := by
  refine (W5_v4 m ρ c).trans ((mlp1_final (V4 m ρ) c).trans ?_)
  show dense (W4 m ρ c (Proc.devRef .tc main_arg2)) (W4 m ρ c (Proc.devRef .tc main_arg10)) (W4 m ρ c (Proc.devRef .tc main_arg11)) = _
  rw [W4_arg2, W4_arg10, W4_arg11]

theorem W6_v5_eq (c : Dev nD) :
    W6 m ρ c (Proc.devRef .tc main_v5) = dense (m ((c : Thread nD τ).loc main_arg4)) (m ((c : Thread nD τ).loc main_arg12)) (m ((c : Thread nD τ).loc main_arg13)) := by
  refine (W6_v5 m ρ c).trans ((mlp2_final (V5 m ρ) c).trans ?_)
  show dense (W5 m ρ c (Proc.devRef .tc main_arg4)) (W5 m ρ c (Proc.devRef .tc main_arg12)) (W5 m ρ c (Proc.devRef .tc main_arg13)) = _
  rw [W5_arg4, W5_arg12, W5_arg13]

theorem W7_v6_eq (c : Dev nD) :
    W7 m ρ c (Proc.devRef .tc main_v6) = dense (m ((c : Thread nD τ).loc main_arg6)) (m ((c : Thread nD τ).loc main_arg14)) (m ((c : Thread nD τ).loc main_arg15)) := by
  refine (W7_v6 m ρ c).trans ((mlp3_final (V6 m ρ) c).trans ?_)
  show dense (W6 m ρ c (Proc.devRef .tc main_arg6)) (W6 m ρ c (Proc.devRef .tc main_arg14)) (W6 m ρ c (Proc.devRef .tc main_arg15)) = _
  rw [W6_arg6, W6_arg14, W6_arg15]

theorem W8_v7_eq (c : Dev nD) :
    W8 m ρ c (Proc.devRef .tc main_v7) = dense (m ((c : Thread nD τ).loc main_arg8)) (m ((c : Thread nD τ).loc main_arg16)) (m ((c : Thread nD τ).loc main_arg17)) := by
  refine (W8_v7 m ρ c).trans ((mlp4_final (V7 m ρ) c).trans ?_)
  show dense (W7 m ρ c (Proc.devRef .tc main_arg8)) (W7 m ρ c (Proc.devRef .tc main_arg16)) (W7 m ρ c (Proc.devRef .tc main_arg17)) = _
  rw [W7_arg8, W7_arg16, W7_arg17]

/-- The looked-up rows as region 5 finds them. -/
theorem W9_v3_eq (c : Dev nD) :
    W9 m ρ c (Proc.devRef .tc main_v3)
      = extractStridedSlice S500000x128 ![0, 0]
          (onehotRows (pad S503808 ![0] ![3808] ![0] (m ((c : Thread nD τ).loc main_arg0)) (constantI S_ 32 0#32) pads_S500000_S503808_038080 h_S_)
            (truncf (F := Ideal) .bf16 (m ((c : Thread nD τ).loc main_arg9)) bitsLt_bf16_f32))
          slices_S503808x128_S500000x128_0_0 := by
  rw [W9_v3, W4_v3, W3_v2, embed_final (V2 m ρ) c]
  show extractStridedSlice S500000x128 ![0, 0]
      (onehotRows (W2 m ρ c (Proc.devRef .tc main_v1)) (W2 m ρ c (Proc.devRef .tc main_v0))) slices_S503808x128_S500000x128_0_0 = _
  rw [W2_v1, W2_v0]

/-- The scattered rows as region 5 finds them. -/
theorem W9_v36_eq (c : Dev nD) :
    W9 m ρ c (Proc.devRef .tc main_v36)
      = scat4 (broadcastInDim S500000x128 ![] bcast_S_S500000x128 (constant (F := Ideal) S_ .bf16 0x0000#16))
          (m ((c : Thread nD τ).loc main_arg1)) (m ((c : Thread nD τ).loc main_arg3)) (m ((c : Thread nD τ).loc main_arg5)) (m ((c : Thread nD τ).loc main_arg7))
          (dense (m ((c : Thread nD τ).loc main_arg2)) (m ((c : Thread nD τ).loc main_arg10)) (m ((c : Thread nD τ).loc main_arg11))) (dense (m ((c : Thread nD τ).loc main_arg4)) (m ((c : Thread nD τ).loc main_arg12)) (m ((c : Thread nD τ).loc main_arg13)))
          (dense (m ((c : Thread nD τ).loc main_arg6)) (m ((c : Thread nD τ).loc main_arg14)) (m ((c : Thread nD τ).loc main_arg15))) (dense (m ((c : Thread nD τ).loc main_arg8)) (m ((c : Thread nD τ).loc main_arg16)) (m ((c : Thread nD τ).loc main_arg17))) := by
  rw [W9_v36, W8_arg1, W8_arg3, W8_arg5, W8_arg7, W8_v4, W5_v4_eq, W8_v5, W6_v5_eq, W8_v6, W7_v6_eq, W8_v7_eq]

/-! ## The result -/

/-- The result array at the last boundary is the kernel function of the launch contents of the arguments. -/
theorem result_eq (c : Dev nD) :
    W10 m ρ c (Proc.devRef .tc main_v38)
      = kernelFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W10_v38 m ρ c).trans ((merge_final (V9 m ρ) c).trans ?_)
  show dense (hcat128 (W9 m ρ c (Proc.devRef .tc main_v3)) (W9 m ρ c (Proc.devRef .tc main_v36)))
      (W9 m ρ c (Proc.devRef .tc main_v37)) (W9 m ρ c (Proc.devRef .tc main_arg19)) = _
  rw [W9_v3_eq, W9_v36_eq, W9_v37, W8_arg18, W9_arg19]
  rfl

end Cert.KernelIdeal.Thread

end
-- ==== Proof.HostDense.lean ====
/-
  The host's spelling of a dense layer is `dense`: a plain `dot_general` of the rows against the TRANSPOSED weight
  matrix, plus the bias vector broadcast to a row and then down the rows. At `(r, q)` the product is
  `∑ k, X (r, k) * Wᵀ (k, q) = ∑ k, X (r, k) * W (q, k)` and the broadcast bias is `b q`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«431102_j70557722739198_1_alg».proof.Proof.LibRowOps
import proofs.«431102_j70557722739198_1_alg».proof.Proof.Spec

noncomputable section

namespace Cert.Emb

open Idealize.ShloMosaic Idealize.ShloMosaic.ValueIdx

/-- A length-`N` vector broadcast to a `[1, N]` row and then down `M` rows reads, at `(r, q)`, its entry `q`. -/
theorem biasRows_apply {α : Type} {M N : ℕ} (b : (⟨1, ![N]⟩ : Shape).Idx → α)
    (h1 : (⟨2, ![1, N]⟩ : Shape).BroadcastsInDim ⟨2, ![M, N]⟩ ![0, 1])
    (h2 : (⟨1, ![N]⟩ : Shape).BroadcastsInDim ⟨2, ![1, N]⟩ ![1]) (r : Fin M) (q : Fin N) :
    broadcastInDim ⟨2, ![M, N]⟩ ![0, 1] h1 (broadcastInDim ⟨2, ![1, N]⟩ ![1] h2 b) (ix2 r q) = b (ix1 q) := by
  rw [broadcastInDim_apply ![0, 1] h1 _ (ix2 r q) (ix2 (0 : Fin 1) q) (fun ax => by
    match ax with
    | ⟨0, _⟩ => rfl
    | ⟨1, _⟩ =>
      show q.val = if N = 1 then 0 else q.val
      split
      · have := q.isLt; omega
      · rfl)]
  exact broadcastInDim_apply ![1] h2 b (ix2 (0 : Fin 1) q) (ix1 q) (fun ax => by
    match ax with
    | ⟨0, _⟩ =>
      show q.val = if N = 1 then 0 else q.val
      split
      · have := q.isLt; omega
      · rfl)

/-- The host's dense layer — rows against the transposed weights by a plain `dot_general`, plus the broadcast
    bias — is `dense`. -/
theorem host_dense_eq {M K N : ℕ} (prec : Option ContractPrecision)
    (X : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h1 : (⟨2, ![1, N]⟩ : Shape).BroadcastsInDim ⟨2, ![M, N]⟩ ![0, 1])
    (h2 : (⟨1, ![N]⟩ : Shape).BroadcastsInDim ⟨2, ![1, N]⟩ ![1]) :
    addf (Host.dotGeneral (DotDims.plain M K N) prec X (transpose ⟨2, ![K, N]⟩ [1, 0] W ht))
        (broadcastInDim ⟨2, ![M, N]⟩ ![0, 1] h1 (broadcastInDim ⟨2, ![1, N]⟩ ![1] h2 b))
      = dense X W b := by
  funext j
  obtain ⟨r, q, rfl⟩ : ∃ (r : Fin M) (q : Fin N), j = ix2 r q := ⟨j 0, j 1, eq_ix2 j⟩
  rw [addf_apply, Cert.Lib.dotGeneral_plain_apply, biasRows_apply]
  show (∑ k : Fin K, X (ix2 r k) * transpose ⟨2, ![K, N]⟩ [1, 0] W ht (ix2 k q)) + b (ix1 q)
    = (∑ k : Fin K, X (ix2 r k) * W (ix2 q k)) + b (ix1 q)
  congr 1
  refine Finset.sum_congr rfl fun k _ => ?_
  rw [transpose_ix2_apply]

end Cert.Emb

end
-- ==== Proof.SpecRows.lean ====
/-
  Looking rows up in a table by an index vector: row `r` of the result is row `idx r` of the table (the index taken
  modulo the number of rows, so that the function is total; it is only ever used where the index is in range).
-/
import proofs.«431102_j70557722739198_1_alg».proof.Proof.Spec

noncomputable section

namespace Cert.Emb

open Idealize.ShloMosaic Idealize.ShloMosaic.ValueIdx

/-- Row `r` of the result is row `idx r` of the 1000-row table. -/
def takeRows {M D : ℕ} (idx : (⟨1, ![M]⟩ : Shape).Idx → BitVec 32) (T : (⟨2, ![1000, D]⟩ : Shape).Idx → EReal) :
    (⟨2, ![M, D]⟩ : Shape).Idx → EReal :=
  fun j => T (ix2 ⟨(idx (ix1 (j 0))).toNat % 1000, Nat.mod_lt _ (by norm_num)⟩ (j 1))

end Cert.Emb

end
-- ==== Proof.BridgeR.lean ====
import proofs.«431102_j70557722739198_1_alg».proof.Proof.Gen.ReferenceIdeal
import proofs.«431102_j70557722739198_1_alg».proof.Proof.SpecRows

set_option maxRecDepth 16384

noncomputable section

namespace Cert.ReferenceIdeal.Bridge

open Idealize.ShloMosaic Idealize.ShloMosaic.ValueIdx
open Cert.ReferenceIdeal Cert.ReferenceIdeal.Facts₀ Cert.ReferenceIdeal.Facts Cert.Emb

/-- A gather of whole rows, read at an index. The operand is an `N × D` table, the start indices an `n × 1` column; the
    table's row axis is collapsed and start-indexed, its column axis is the result's one offset axis, and the index vector
    lies along axis 1 of the column. Entry `(r, q)` of the result is the table's entry `(k, q)`, where `k` is the start
    index of row `r` read as a signed integer and clamped into `[0, N - 1]`. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (r : Fin n) (q : Fin D) (hN : 0 < N) :
    Host.gather d x idx (ix2 r q)
      = x (ix2 ⟨min (idx (ix2 r (0 : Fin 1))).toInt.toNat (N - 1), by omega⟩ q) := by
  unfold Host.gather
  congr 1
  funext a
  apply Fin.ext
  have hb : ∀ a : Fin 2, a ∉ d.operandBatchingDims := by intro a; rw [hob]; exact List.not_mem_nil
  match a with
  | ⟨0, _⟩ =>
    -- the row axis: collapsed (no offset coordinate), not batching, and the one start-indexed axis
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r q) idx 0 + d.batchCoord (ix2 r q) 0 + d.offCoord (ix2 r q) 0 = _
    rw [GatherDims.batchCoord_eq_zero _ _ _ (hb 0), GatherDims.offCoord_eq_zero _ _ _ hk]
    simp only [Nat.add_zero]
    unfold GatherDims.start
    rw [dif_pos hm, hsl]
    -- the start index of result index (r, q) is read at (r, 0) of the column
    have hsi : d.siIdx (ix2 r q) ⟨List.idxOf (0 : Fin 2) d.startIndexMap, List.idxOf_lt_length_iff.2 hm⟩
        = ix2 r (0 : Fin 1) := by
      funext b
      apply Fin.ext
      match b with
      | ⟨0, _⟩ =>
        -- the column's row axis is read at the result's one batch axis, axis 0
        unfold GatherDims.siIdx
        rw [dif_neg (by rw [hivd]; simp)]
        unfold GatherDims.siCoord
        simp only [Fin.val_cast]
        have hbd : d.batchDims = [0] := by
          show Shape.kept _ d.offsetDims = _
          rw [hoff]; rfl
        have e : ∀ X ∈ d.batchDims, ((ix2 r q : (⟨2, ![n, D]⟩ : Shape).Idx) X).val = r.val := by
          intro X hX; rw [hbd] at hX; obtain rfl := List.mem_singleton.mp hX; rfl
        exact e _ (List.getElem_mem _)
      | ⟨1, _⟩ =>
        -- the index vector's axis: component 0, the position of axis 0 in the start index map
        unfold GatherDims.siIdx
        rw [dif_pos (by rw [hivd])]
        show List.idxOf (0 : Fin 2) d.startIndexMap = 0
        rw [hsim]; simp
    rw [hsi]
    rfl
  | ⟨1, _⟩ =>
    -- the column axis: not start-indexed, not batching, kept: its coordinate is the result's offset coordinate
    have hk : (1 : Fin 2) ∈ d.sKept := by rw [GatherDims.mem_sKept, hcoll, hob]; simp
    have hm : (1 : Fin 2) ∉ d.startIndexMap := by rw [hsim]; simp
    show d.start (ix2 r q) idx 1 + d.batchCoord (ix2 r q) 1 + d.offCoord (ix2 r q) 1 = _
    rw [GatherDims.batchCoord_eq_zero _ _ _ (hb 1)]
    unfold GatherDims.start
    rw [dif_neg hm]
    unfold GatherDims.offCoord
    rw [dif_pos hk]
    simp only [Nat.add_zero, Nat.zero_add]
    have e : ∀ X ∈ d.offsetDims, ((ix2 r q : (⟨2, ![n, D]⟩ : Shape).Idx) X).val = q.val := by
      intro X hX; rw [hoff] at hX; obtain rfl := List.mem_singleton.mp hX; rfl
    exact e _ (List.getElem_mem _)

/-- The wrapped index vector, laid out as a column, read at `(r, 0)`: the index `ff r` itself, since it is not negative
    (the signed comparison `ff r < 0` is false, so the selection keeps `ff r`). -/
theorem wrapped_index (ff : IVec S500000 32) (hff : ∀ i, 0 ≤ (ff i).toInt ∧ (ff i).toInt < 1000) (r : Fin 500000) :
    broadcastInDim S500000x1 ![0] bcast_S500000_S500000x1_0
        (select (cmpi .slt ff (broadcastInDim S500000 ![] bcast_S_S500000 (constantI S_ 32 0#32)))
          (addi ff (broadcastInDim S500000 ![] bcast_S_S500000 (constantI S_ 32 1000#32))) ff) (ix2 r (0 : Fin 1))
      = ff (ix1 r) := by
  -- a vector laid out as a column reads, at (r, 0), its entry r
  have h0 : ∀ v : IVec S500000 32,
      broadcastInDim S500000x1 ![0] bcast_S500000_S500000x1_0 v (ix2 r (0 : Fin 1)) = v (ix1 r) := by
    intro v
    unfold broadcastInDim
    congr 1
    funext a
    match a with
    | ⟨0, _⟩ => rfl
  rw [h0, select_apply]
  have hc : cmpi .slt ff (broadcastInDim S500000 ![] bcast_S_S500000 (constantI S_ 32 0#32)) (ix1 r) = 0#1 := by
    have hn : ¬ ((ff (ix1 r)).toInt < (0#32).toInt) := by
      have := (hff (ix1 r)).1
      simp only [BitVec.toInt_zero]; omega
    show BitVec.ofBool (decide ((ff (ix1 r)).toInt < (0#32).toInt)) = 0#1
    rw [decide_eq_false hn]; rfl
  rw [hc, select_zero]

/-- A 32-bit word whose signed value lies in `[0, 1000)` has that value as its unsigned value too. -/
theorem toNat_of_range (a : BitVec 32) (h : 0 ≤ a.toInt ∧ a.toInt < 1000) :
    a.toInt.toNat = a.toNat ∧ a.toNat < 1000 := by
  have h2 := BitVec.toInt_eq_toNat_cond a
  have h3 := a.isLt
  split at h2 <;> omega

/-- Where every index is a row number of the table, the gather of the table's rows at the wrapped indices (a negative
    index has the row count added; none is negative here) is the table's rows looked up by the index vector. -/
theorem gather_eq_take (ff : IVec S500000 32) (T : FVec Ideal S1000x128 .f32)
    (hff : ∀ i, 0 ≤ (ff i).toInt ∧ (ff i).toInt < 1000) :
    Host.gather gather_S1000x128_S500000x1_S500000x128_1_0_n_n_0_1_1128 T
      (broadcastInDim S500000x1 ![0] bcast_S500000_S500000x1_0
        (select (cmpi .slt ff (broadcastInDim S500000 ![] bcast_S_S500000 (constantI S_ 32 0#32)))
          (addi ff (broadcastInDim S500000 ![] bcast_S_S500000 (constantI S_ 32 1000#32))) ff))
    = takeRows ff T := by
  funext j
  obtain ⟨r, q, rfl⟩ : ∃ (r : Fin 500000) (q : Fin 128), j = ix2 r q :=
    ⟨j 0, j 1, eq_ix2 (n0 := 500000) (n1 := 128) j⟩
  refine (gather_rows_apply (N := 1000) (D := 128) (n := 500000)
    gather_S1000x128_S500000x1_S500000x128_1_0_n_n_0_1_1128 rfl rfl rfl rfl rfl T _ r q (by norm_num)).trans ?_
  obtain ⟨h1, h2⟩ := toNat_of_range (ff (ix1 r)) (hff _)
  show T (ix2 _ _) = T (ix2 _ _)
  congr 2
  apply Fin.ext
  -- clamping into [0, 999] and reducing modulo 1000 both leave an index below 1000 alone
  show min (_ : BitVec 32).toInt.toNat (1000 - 1) = (ff (ix1 r)).toNat % 1000
  rw [wrapped_index ff hff r]
  omega

end Cert.ReferenceIdeal.Bridge

end
-- ==== Proof.RefValue.lean ====
/-
  The reference program's result as ONE function of its twenty argument arrays: the table's rows looked up by the
  index vector, beside the four dense layers' rows scattered in order into the zero array, through the merge layer.
  The reference's run gives the result as the composition of its host operations; here each dense layer in the host's
  spelling is rewritten to `dense`, the concatenation to `hcat128`, and the gather at in-range indices to the row
  lookup.
-/
import proofs.«431102_j70557722739198_1_alg».proof.Proof.RefRun
import proofs.«431102_j70557722739198_1_alg».proof.Proof.HostDense
import proofs.«431102_j70557722739198_1_alg».proof.Proof.ConcatRows
import proofs.«431102_j70557722739198_1_alg».proof.Proof.BridgeR

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Emb

/-- An index vector with the row count 500000 added to its negative entries, as a column. -/
abbrev wrapIdx (i : IVec S125000 32) : IVec S125000x1 32 :=
  broadcastInDim S125000x1 ![0] bcast_S125000_S125000x1_0
    (select (cmpi .slt i (broadcastInDim S125000 ![] bcast_S_S125000 (constantI S_ 32 0#32)))
      (addi i (broadcastInDim S125000 ![] bcast_S_S125000 (constantI S_ 32 500000#32))) i)

/-- Four row scatters in a row, each overwriting the rows its index vector names with its update's rows. -/
abbrev scat4 {α : Type} (base : S500000x128.Idx → α) (i0 i1 i2 i3 : IVec S125000 32) (u0 u1 u2 u3 : S125000x128.Idx → α) :
    S500000x128.Idx → α :=
  Host.scatter scatter_S500000x128_S125000x1_S125000x128_1_0_0_1 (fun _ b => b)
    (Host.scatter scatter_S500000x128_S125000x1_S125000x128_1_0_0_1 (fun _ b => b)
      (Host.scatter scatter_S500000x128_S125000x1_S125000x128_1_0_0_1 (fun _ b => b)
        (Host.scatter scatter_S500000x128_S125000x1_S125000x128_1_0_0_1 (fun _ b => b) base (wrapIdx i0) u0)
        (wrapIdx i1) u1)
      (wrapIdx i2) u2)
    (wrapIdx i3) u3

/-- The reference program as a function of its arguments. -/
def refFn (ff : IVec S500000 32)
    (i0 : IVec S125000 32) (x0 : FVec Ideal S125000x64 .f32) (i1 : IVec S125000 32) (x1 : FVec Ideal S125000x64 .f32)
    (i2 : IVec S125000 32) (x2 : FVec Ideal S125000x64 .f32) (i3 : IVec S125000 32) (x3 : FVec Ideal S125000x64 .f32)
    (T : FVec Ideal S1000x128 .f32)
    (w0 : FVec Ideal S128x64 .f32) (b0 : FVec Ideal S128 .f32) (w1 : FVec Ideal S128x64 .f32) (b1 : FVec Ideal S128 .f32)
    (w2 : FVec Ideal S128x64 .f32) (b2 : FVec Ideal S128 .f32) (w3 : FVec Ideal S128x64 .f32) (b3 : FVec Ideal S128 .f32)
    (mw : FVec Ideal S256x256 .f32) (mb : FVec Ideal S256 .f32) : S500000x256.Idx → EReal :=
  dense
    (hcat128 (takeRows ff T)
      (scat4 (broadcastInDim S500000x128 ![] bcast_S_S500000x128 (constant (F := Ideal) S_ .f32 0x00000000#32))
        i0 i1 i2 i3 (dense x0 w0 b0) (dense x1 w1 b1) (dense x2 w2 b2) (dense x3 w3 b3)))
    mw mb

variable (m : (ℓ : Loc nD τ sig) → Buf (Elt Ideal) ℓ)

set_option maxHeartbeats 4000000 in
/-- Where every index is a row number of the table, the reference run's result term is the reference function of the
    launch contents of the arguments. -/
theorem ref_eq (c : Dev nD)
    (hff : ∀ i, 0 ≤ ((m ((c.tc : Thread nD τ).loc main_arg0)) i).toInt ∧ ((m ((c.tc : Thread nD τ).loc main_arg0)) i).toInt < 1000) :
    res_main_v61 (F := Ideal) m c
      = refFn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold res_main_v61 refFn
  rw [show (dot_S500000x256_S256x256_S500000x256_1_0_0_1_n_n : DotDims S500000x256 S256x256 S500000x256)
        = DotDims.plain 500000 256 256 from rfl,
      show (dot_S125000x64_S64x128_S125000x128_1_0_0_1_n_n : DotDims S125000x64 S64x128 S125000x128)
        = DotDims.plain 125000 64 128 from rfl]
  rw [host_dense_eq, host_dense_eq, host_dense_eq, host_dense_eq, host_dense_eq]
  rw [concat_rows_eq, Bridge.gather_eq_take _ _ hff]

end Cert.ReferenceIdeal.RefValue

end
-- ==== Proof.BridgeK.lean ====
import proofs.«431102_j70557722739198_1_alg».proof.Proof.Gen.KernelIdeal
import proofs.«431102_j70557722739198_1_alg».proof.Proof.SpecRows

set_option maxRecDepth 16384

noncomputable section

namespace Cert.KernelIdeal.Bridge

open Idealize.ShloMosaic Idealize.ShloMosaic.ValueIdx
open Cert.KernelIdeal Cert.KernelIdeal.Facts₀ Cert.KernelIdeal.Facts Cert.Emb

/-- A block cut at offset `(0, 0)` reads the operand at the same coordinates. -/
theorem slice_origin_apply {α : Type} {m m' n : Nat} (x : (⟨2, ![m', n]⟩ : Shape).Idx → α)
    (h : (⟨2, ![m', n]⟩ : Shape).Slices ![0, 0] ⟨2, ![m, n]⟩) (r : Fin m) (q : Fin n) (hr : r.val < m') :
    extractStridedSlice ⟨2, ![m, n]⟩ ![0, 0] x h (ix2 r q) = x (ix2 (⟨r.val, hr⟩ : Fin m') q) := by
  unfold extractStridedSlice
  congr 1
  funext a
  apply Fin.ext
  match a with
  | ⟨0, _⟩ => exact Nat.zero_add _
  | ⟨1, _⟩ => exact Nat.zero_add _

/-- A vector padded at its end only reads, below the operand's length, the operand. -/
theorem pad_end_apply {α : Type} {n m p : Nat} (x : (⟨1, ![n]⟩ : Shape).Idx → α) {u : Shape} (v : u.Idx → α)
    (hp : (⟨1, ![n]⟩ : Shape).Pads (![0] : Fin 1 → Nat) ![p] ![0] ⟨1, ![m]⟩) (hu : 0 < u.numel)
    (r : Fin n) (hr : r.val < m) :
    pad ⟨1, ![m]⟩ ![0] ![p] ![0] x v hp hu (ix1 (⟨r.val, hr⟩ : Fin m)) = x (ix1 r) := by
  unfold pad
  split
  · congr 1
    funext a
    have ha : a = 0 := Subsingleton.elim _ _
    subst ha
    apply Fin.ext
    show (r.val - 0) / (0 + 1) = r.val
    rw [Nat.sub_zero, Nat.zero_add, Nat.div_one]
  · rename_i hin
    exfalso
    apply hin
    intro a
    have ha : a = 0 := Subsingleton.elim _ _
    subst ha
    refine ⟨Nat.zero_le _, ?_, ?_⟩
    · show (r.val - 0) % (0 + 1) = 0
      exact Nat.mod_one _
    · show (r.val - 0) / (0 + 1) < n
      rw [Nat.sub_zero, Nat.zero_add, Nat.div_one]
      exact r.isLt

/-- A 32-bit word whose signed value lies in `[0, 1000)` has an unsigned value below 1000. -/
theorem toNat_lt_of_range (a : BitVec 32) (h : 0 ≤ a.toInt ∧ a.toInt < 1000) : a.toNat < 1000 := by
  have h2 := BitVec.toInt_eq_toNat_cond a
  have h3 := a.isLt
  split at h2 <;> omega

/-- Where the index is a row number, the one-hot product picks that row of the table: of the sum over the table's
    rows `k` of `[i = k] * T (k, q)` only the term `k = i` is not zero, and it is `1 * T (i, q)`. On the extended reals
    `0 * x = 0` and `1 * x = x` for every `x`, the infinities included. The two sides may be indexed over different
    lengths, as long as they read the same index word and the same column. -/
theorem onehotRows_eq_takeRows_at {M M' D : ℕ} (idx : (⟨1, ![M]⟩ : Shape).Idx → BitVec 32)
    (idx' : (⟨1, ![M']⟩ : Shape).Idx → BitVec 32) (T : (⟨2, ![1000, D]⟩ : Shape).Idx → EReal)
    (j : (⟨2, ![M, D]⟩ : Shape).Idx) (j' : (⟨2, ![M', D]⟩ : Shape).Idx)
    (hi : idx (ix1 (j 0)) = idx' (ix1 (j' 0))) (hq : j 1 = j' 1) (hlt : (idx' (ix1 (j' 0))).toNat < 1000) :
    onehotRows idx T j = takeRows idx' T j' := by
  show (∑ k : Fin 1000, (if idx (ix1 (j 0)) = BitVec.ofNat 32 k.val then (1 : EReal) else 0) * T (ix2 k (j 1)))
      = T (ix2 ⟨(idx' (ix1 (j' 0))).toNat % 1000, Nat.mod_lt _ (by norm_num)⟩ (j' 1))
  rw [hi, hq]
  rw [Finset.sum_eq_single (⟨(idx' (ix1 (j' 0))).toNat, hlt⟩ : Fin 1000)]
  · rw [if_pos (BitVec.eq_of_toNat_eq (by
      rw [BitVec.toNat_ofNat]; exact (Nat.mod_eq_of_lt (idx' (ix1 (j' 0))).isLt).symm)), one_mul]
    congr 2
    apply Fin.ext
    exact (Nat.mod_eq_of_lt hlt).symm
  · intro k _ hk
    have hne : ¬ (idx' (ix1 (j' 0)) = BitVec.ofNat 32 k.val) := by
      intro h
      apply hk
      apply Fin.ext
      show k.val = (idx' (ix1 (j' 0))).toNat
      rw [h, BitVec.toNat_ofNat]
      exact (Nat.mod_eq_of_lt (by have := k.isLt; omega)).symm
    rw [if_neg hne, zero_mul]
  · intro h
    exact absurd (Finset.mem_univ _) h

/-- Where every index is a row number of the table, the one-hot rows of the zero-padded index vector against the
    table, cut back to the first 500000 rows, are the table's rows looked up by the index vector. -/
theorem embed_eq_take (ff : IVec S500000 32) (T : FVec Ideal S1000x128 .f32)
    (hff : ∀ i, 0 ≤ (ff i).toInt ∧ (ff i).toInt < 1000) :
    extractStridedSlice S500000x128 ![0, 0]
      (onehotRows (pad S503808 ![0] ![3808] ![0] ff (constantI S_ 32 0#32) pads_S500000_S503808_038080 h_S_)
        (truncf (F := Ideal) .bf16 T bitsLt_bf16_f32))
      slices_S503808x128_S500000x128_0_0
    = takeRows ff T := by
  funext j
  obtain ⟨r, q, rfl⟩ : ∃ (r : Fin 500000) (q : Fin 128), j = ix2 r q :=
    ⟨j 0, j 1, eq_ix2 (n0 := 500000) (n1 := 128) j⟩
  -- row r of the cut is row r of the padded product, whose index word is that of the unpadded vector
  have hr : r.val < 503808 := by have := r.isLt; omega
  refine (slice_origin_apply (m := 500000) (m' := 503808) (n := 128) _ slices_S503808x128_S500000x128_0_0 r q hr).trans ?_
  -- a change of float format is the identity on the extended reals, so the truncated table is the table itself
  exact onehotRows_eq_takeRows_at (M := 503808) (M' := 500000) (D := 128) _ ff T
    (ix2 (⟨r.val, hr⟩ : Fin 503808) q) (ix2 r q)
    (pad_end_apply (n := 500000) (m := 503808) (p := 3808) ff _ pads_S500000_S503808_038080 h_S_ r hr)
    rfl (toNat_lt_of_range _ (hff _))

end Cert.KernelIdeal.Bridge

end
-- ==== Proof.PreRange.lean ====
import proofs.«431102_j70557722739198_1_alg».proof.Proof.Gen.Pre_finite_inputs
import Idealize.ShloMosaic.Lib.ReduceAll
import Idealize.ShloMosaic.Lib.ValueIdx
import Idealize.ShloMosaic.Lib.StableHlo.Predicate

set_option maxRecDepth 16384

noncomputable section

namespace Cert.Pre_finite_inputs.Range

open Idealize.ShloMosaic Idealize.ShloMosaic.ValueIdx
open Cert.Pre_finite_inputs Cert.Pre_finite_inputs.Facts

/-- The precondition's last conjunct: where the last part of the predicate is all ones, every entry of the index
    vector is a row number of the 1000-row table. -/
theorem range_of_part4 {F : FTy → Type} [FloatOps F] (a0 : IVec S500000 32) (a19 : FVec F S256 .f32) (v63 v67 : IVec S_ 1)
    (h : fn_part4 (F := F) a0 a19 v63 v67 = (fun _ => 1#1)) :
    ∀ i, 0 ≤ (a0 i).toInt ∧ (a0 i).toInt < 1000 := by
  intro i
  -- the predicate read at its one index is the conjunction of the earlier conjuncts with the range test's `all`
  have h0 : IntOp.andi _ _ = 1#1 := congrFun h ix0
  obtain ⟨-, hall⟩ := IntOp.andi_eq_one.1 h0
  haveI : Subsingleton S_.Idx := ⟨fun a b => funext fun d => d.elim0⟩
  -- an `all` that is one is one at every entry; there it is the conjunction of the two signed compares
  have hi : IntOp.andi _ _ = 1#1 := Host.reduce_andi_all _ _ _ _ _ hall i
  obtain ⟨hge, hlt⟩ := IntOp.andi_eq_one.1 hi
  have hge' : (0#32).toInt ≤ (a0 i).toInt := IntOp.cmpi_sge.1 hge
  have hlt' : (a0 i).toInt < (1000#32).toInt := IntOp.cmpi_slt.1 hlt
  have e0 : (0#32).toInt = 0 := by decide
  have e1 : (1000#32).toInt = 1000 := by decide
  rw [e0] at hge'
  rw [e1] at hlt'
  exact ⟨hge', hlt'⟩

/-- The whole precondition: where the predicate of the twenty argument arrays is all ones, every entry of the index
    vector is a row number of the 1000-row table. -/
theorem range_of_fn {F : FTy → Type} [FloatOps F] (a0 : IVec S500000 32) (a1 : IVec S125000 32) (a2 : FVec F S125000x64 .f32) (a3 : IVec S125000 32) (a4 : FVec F S125000x64 .f32) (a5 : IVec S125000 32) (a6 : FVec F S125000x64 .f32) (a7 : IVec S125000 32) (a8 : FVec F S125000x64 .f32) (a9 : FVec F S1000x128 .f32) (a10 : FVec F S128x64 .f32) (a11 : FVec F S128 .f32) (a12 : FVec F S128x64 .f32) (a13 : FVec F S128 .f32) (a14 : FVec F S128x64 .f32) (a15 : FVec F S128 .f32) (a16 : FVec F S128x64 .f32) (a17 : FVec F S128 .f32) (a18 : FVec F S256x256 .f32) (a19 : FVec F S256 .f32)
    (h : fn (F := F) a0 a1 a2 a3 a4 a5 a6 a7 a8 a9 a10 a11 a12 a13 a14 a15 a16 a17 a18 a19 = (fun _ => 1#1)) :
    ∀ i, 0 ≤ (a0 i).toInt ∧ (a0 i).toInt < 1000 :=
  -- the predicate unfolds to its four parts in a row; the last part carries the range test
  range_of_part4 a0 a19 _ _ h

end Cert.Pre_finite_inputs.Range

end
-- ==== Proof.lean ====
/-
  The certificate's claim for an embedding layer: table rows looked up by an index vector, beside four small dense
  layers whose rows are scattered by four index vectors, the two halves side by side through a final dense layer.

  The kernel program computes the lookup as the product of one-hot rows with the table, each dense layer in row blocks,
  and the final layer in row blocks; the reference computes the lookup by a gather and each layer by one product. On the
  extended reals a change of float format is the identity and a blocked product is the same sum, so the two programs
  differ only in the lookup, and there they agree exactly where every index is a row number of the table: the
  one-hot row of an index in range has a single one, at that row. That range is the precondition's last conjunct.
  The two scatter chains are the same operations on the same index vectors and are never opened.
-/
import proofs.«431102_j70557722739198_1_alg».proof.Defs
import proofs.«431102_j70557722739198_1_alg».proof.Proof.Gen.Kernel
import proofs.«431102_j70557722739198_1_alg».proof.Proof.Gen.Kernel.Frame
import proofs.«431102_j70557722739198_1_alg».proof.Proof.Gen.KernelIdeal
import proofs.«431102_j70557722739198_1_alg».proof.Proof.Gen.KernelIdeal.Frame
import proofs.«431102_j70557722739198_1_alg».proof.Proof.Gen.ReferenceIdeal
import proofs.«431102_j70557722739198_1_alg».proof.Proof.Gen.Pre_finite_inputs
import proofs.«431102_j70557722739198_1_alg».proof.Proof.KernelRun
import proofs.«431102_j70557722739198_1_alg».proof.Proof.Thread
import proofs.«431102_j70557722739198_1_alg».proof.Proof.RefValue
import proofs.«431102_j70557722739198_1_alg».proof.Proof.BridgeK
import proofs.«431102_j70557722739198_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem Cert.Emb

/-! ## The two programs are one function where the indices are row numbers -/

/-- The zero array the kernel scatters into (zero in the narrower format) is the reference's zero array. -/
theorem zero_rows_eq :
    (broadcastInDim Cert.KernelIdeal.S500000x128 ![] Cert.KernelIdeal.Gen.bcast_S_S500000x128
        (constant (F := Ideal) Cert.KernelIdeal.S_ .bf16 0x0000#16) : Cert.KernelIdeal.S500000x128.Idx → EReal)
      = broadcastInDim Cert.ReferenceIdeal.S500000x128 ![] Cert.ReferenceIdeal.Gen.bcast_S_S500000x128
          (constant (F := Ideal) Cert.ReferenceIdeal.S_ .f32 0x00000000#32) := by
  funext i
  rw [broadcastInDim_apply ![] _ _ i ValueIdx.ix0 (fun ax => ax.elim0),
    broadcastInDim_apply ![] _ _ i ValueIdx.ix0 (fun ax => ax.elim0), ValueIdx.constant_apply, ValueIdx.constant_apply,
    Ideal.ofBits_zero_f32]
  simp [Ideal.ofBits, Ideal.ieee]

/-- Where every index is a row number of the table the kernel function is the reference function: the one-hot product
    is the row lookup, the narrower format of the merge weights is the same numbers, and the scatter chains are the
    same chain into the same zero array. -/
theorem fn_eq (ff : IVec Cert.KernelIdeal.S500000 32)
    (i0 : IVec Cert.KernelIdeal.S125000 32) (x0 : FVec Ideal Cert.KernelIdeal.S125000x64 .f32)
    (i1 : IVec Cert.KernelIdeal.S125000 32) (x1 : FVec Ideal Cert.KernelIdeal.S125000x64 .f32)
    (i2 : IVec Cert.KernelIdeal.S125000 32) (x2 : FVec Ideal Cert.KernelIdeal.S125000x64 .f32)
    (i3 : IVec Cert.KernelIdeal.S125000 32) (x3 : FVec Ideal Cert.KernelIdeal.S125000x64 .f32)
    (T : FVec Ideal Cert.KernelIdeal.S1000x128 .f32)
    (w0 : FVec Ideal Cert.KernelIdeal.S128x64 .f32) (b0 : FVec Ideal Cert.KernelIdeal.S128 .f32)
    (w1 : FVec Ideal Cert.KernelIdeal.S128x64 .f32) (b1 : FVec Ideal Cert.KernelIdeal.S128 .f32)
    (w2 : FVec Ideal Cert.KernelIdeal.S128x64 .f32) (b2 : FVec Ideal Cert.KernelIdeal.S128 .f32)
    (w3 : FVec Ideal Cert.KernelIdeal.S128x64 .f32) (b3 : FVec Ideal Cert.KernelIdeal.S128 .f32)
    (mw : FVec Ideal Cert.KernelIdeal.S256x256 .f32) (mb : FVec Ideal Cert.KernelIdeal.S256 .f32)
    (hff : ∀ i, 0 ≤ (ff i).toInt ∧ (ff i).toInt < 1000) :
    Cert.KernelIdeal.Thread.kernelFn ff i0 x0 i1 x1 i2 x2 i3 x3 T w0 b0 w1 b1 w2 b2 w3 b3 mw mb
      = Cert.ReferenceIdeal.RefValue.refFn ff i0 x0 i1 x1 i2 x2 i3 x3 T w0 b0 w1 b1 w2 b2 w3 b3 mw mb := by
  unfold Cert.KernelIdeal.Thread.kernelFn Cert.ReferenceIdeal.RefValue.refFn
  rw [Cert.KernelIdeal.Bridge.embed_eq_take ff T hff, zero_rows_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: its ledger is empty. -/
theorem preserves : Cert.preserves_Kernel_KernelIdeal := trivial

set_option maxHeartbeats 8000000 in
/-- Both idealized programs end, from memories agreeing on the arguments, with the result array at the kernel
    function of the arguments: the kernel by its run read back through the regions, the reference by its run's
    composed term, the two functions equal where the precondition's range conjunct holds. -/
theorem algebraic : Cert.algebraic_KernelIdeal_ReferenceIdeal := by
  intro m ρ m' ρ' hpre hagree
  have hff : ∀ c : Dev Cert.KernelIdeal.nD, ∀ i,
      0 ≤ ((m ((c.tc : Thread Cert.KernelIdeal.nD Cert.KernelIdeal.τ).loc Cert.KernelIdeal.main_arg0)) i).toInt ∧ ((m ((c.tc : Thread Cert.KernelIdeal.nD Cert.KernelIdeal.τ).loc Cert.KernelIdeal.main_arg0)) i).toInt < 1000 := fun c =>
    Cert.Pre_finite_inputs.Range.range_of_fn _ _ _ _ _ _ _ _ _ _ _ _ _ _ _ _ _ _ _ _ (hpre c)
  refine ⟨fun c => Cert.KernelIdeal.Thread.kernelFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Thread.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19⟩ := hagree c
    rw [Cert.ReferenceIdeal.RefValue.ref_eq m' c (by rw [a0]; exact hff c)]
    rw [a0, a1, a2, a3, a4, a5, a6, a7, a8, a9, a10, a11, a12, a13, a14, a15, a16, a17, a18, a19]
    exact (fn_eq _ _ _ _ _ _ _ _ _ _ _ _ _ _ _ _ _ _ _ _ (hff c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
